-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v15_1)) (v1 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_1) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1536 : Shape := ⟨2, ![100000, 1536]⟩
abbrev S100000 : Shape := ⟨1, ![100000]⟩
abbrev S250000x128 : Shape := ⟨2, ![250000, 128]⟩
abbrev S384x1536 : Shape := ⟨2, ![384, 1536]⟩
abbrev S384x128 : Shape := ⟨2, ![384, 128]⟩
abbrev S384 : Shape := ⟨1, ![384]⟩
abbrev S2x1664 : Shape := ⟨2, ![2, 1664]⟩
abbrev S2 : Shape := ⟨1, ![2]⟩
abbrev S_ : Shape := ⟨0, ![]⟩

class Facts : Prop where
  bcast_S_S100000x1536 : S_.BroadcastsInDim S100000x1536 (![] : Fin 0 → Fin S100000x1536.rank)
  reducesTo_S100000x1536_S_d0_1 : S100000x1536.ReducesTo [0, 1] S_
  h_S_ : 0 < S_.numel
  bcast_S_S250000x128 : S_.BroadcastsInDim S250000x128 (![] : Fin 0 → Fin S250000x128.rank)
  reducesTo_S250000x128_S_d0_1 : S250000x128.ReducesTo [0, 1] S_
  bcast_S_S384x1536 : S_.BroadcastsInDim S384x1536 (![] : Fin 0 → Fin S384x1536.rank)
  reducesTo_S384x1536_S_d0_1 : S384x1536.ReducesTo [0, 1] S_
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_
  bcast_S_S2x1664 : S_.BroadcastsInDim S2x1664 (![] : Fin 0 → Fin S2x1664.rank)
  reducesTo_S2x1664_S_d0_1 : S2x1664.ReducesTo [0, 1] S_
  bcast_S_S2 : S_.BroadcastsInDim S2 (![] : Fin 0 → Fin S2.rank)
  reducesTo_S2_S_d0 : S2.ReducesTo [0] S_
  bcast_S_S100000 : S_.BroadcastsInDim S100000 (![] : Fin 0 → Fin S100000.rank)
  reducesTo_S100000_S_d0 : S100000.ReducesTo [0] S_

variable [Facts]

def fn_part2 {F : FTy → Type} [FloatOps F] (main_arg1 : IVec S100000 32) (main_arg8 : FVec F S2 .f32) (main_v33 : IVec S_ 1) : IVec S_ 1 :=
  let main_v34 : FVec F S2 .f32 := Host.absf main_arg8
  let main_cst_12 : FVec F S_ .f32 := constant S_ .f32 0x7F800000#32
  let main_v35 : FVec F S2 .f32 := broadcastInDim S2 ![] bcast_S_S2 main_cst_12
  let main_v36 : IVec S2 1 := cmpf .olt main_v34 main_v35
  let main_c_13 : IVec S_ 1 := constantI S_ 1 1#1
  let main_v37 : IVec S_ 1 := (fun x v => Host.reduce IntOp.andi x v reducesTo_S2_S_d0 h_S_) main_v36 main_c_13
  let main_v38 : IVec S_ 1 := andi main_v33 main_v37
  let main_c_14 : IVec S_ 32 := constantI S_ 32 4294717296#32
  let main_v39 : IVec S100000 32 := broadcastInDim S100000 ![] bcast_S_S100000 main_c_14
  let main_v40 : IVec S100000 1 := cmpi .sge main_arg1 main_v39
  let main_c_15 : IVec S_ 1 := constantI S_ 1 1#1
  let main_v41 : IVec S_ 1 := (fun x v => Host.reduce IntOp.andi x v reducesTo_S100000_S_d0 h_S_) main_v40 main_c_15
  let main_v42 : IVec S_ 1 := andi main_v38 main_v41
  let main_c_16 : IVec S_ 32 := constantI S_ 32 250000#32
  let main_v43 : IVec S100000 32 := broadcastInDim S100000 ![] bcast_S_S100000 main_c_16
  let main_v44 : IVec S100000 1 := cmpi .slt main_arg1 main_v43
  let main_c_17 : IVec S_ 1 := constantI S_ 1 1#1
  let main_v45 : IVec S_ 1 := (fun x v => Host.reduce IntOp.andi x v reducesTo_S100000_S_d0 h_S_) main_v44 main_c_17
  let main_v46 : IVec S_ 1 := andi main_v42 main_v45
  main_v46

def fn_part1 {F : FTy → Type} [FloatOps F] (main_arg1 : IVec S100000 32) (main_arg5 : FVec F S384 .f32) (main_arg6 : FVec F S384 .f32) (main_arg7 : FVec F S2x1664 .f32) (main_arg8 : FVec F S2 .f32) (main_v13 : IVec S_ 1) (main_v16 : IVec S384x128 1) : IVec S_ 1 :=
  let main_c_5 : IVec S_ 1 := constantI S_ 1 1#1
  let main_v17 : IVec S_ 1 := (fun x v => Host.reduce IntOp.andi x v reducesTo_S384x128_S_d0_1 h_S_) main_v16 main_c_5
  let main_v18 : IVec S_ 1 := andi main_v13 main_v17
  let main_v19 : FVec F S384 .f32 := Host.absf main_arg5
  let main_cst_6 : FVec F S_ .f32 := constant S_ .f32 0x7F800000#32
  let main_v20 : FVec F S384 .f32 := broadcastInDim S384 ![] bcast_S_S384 main_cst_6
  let main_v21 : IVec S384 1 := cmpf .olt main_v19 main_v20
  let main_c_7 : IVec S_ 1 := constantI S_ 1 1#1
  let main_v22 : IVec S_ 1 := (fun x v => Host.reduce IntOp.andi x v reducesTo_S384_S_d0 h_S_) main_v21 main_c_7
  let main_v23 : IVec S_ 1 := andi main_v18 main_v22
  let main_v24 : FVec F S384 .f32 := Host.absf main_arg6
  let main_cst_8 : FVec F S_ .f32 := constant S_ .f32 0x7F800000#32
  let main_v25 : FVec F S384 .f32 := broadcastInDim S384 ![] bcast_S_S384 main_cst_8
  let main_v26 : IVec S384 1 := cmpf .olt main_v24 main_v25
  let main_c_9 : IVec S_ 1 := constantI S_ 1 1#1
  let main_v27 : IVec S_ 1 := (fun x v => Host.reduce IntOp.andi x v reducesTo_S384_S_d0 h_S_) main_v26 main_c_9
  let main_v28 : IVec S_ 1 := andi main_v23 main_v27
  let main_v29 : FVec F S2x1664 .f32 := Host.absf main_arg7
  let main_cst_10 : FVec F S_ .f32 := constant S_ .f32 0x7F800000#32
  let main_v30 : FVec F S2x1664 .f32 := broadcastInDim S2x1664 ![] bcast_S_S2x1664 main_cst_10
  let main_v31 : IVec S2x1664 1 := cmpf .olt main_v29 main_v30
  let main_c_11 : IVec S_ 1 := constantI S_ 1 1#1
  let main_v32 : IVec S_ 1 := (fun x v => Host.reduce IntOp.andi x v reducesTo_S2x1664_S_d0_1 h_S_) main_v31 main_c_11
  let main_v33 : IVec S_ 1 := andi main_v28 main_v32
  fn_part2 (F := F) main_arg1 main_arg8 main_v33

def fn {F : FTy → Type} [FloatOps F] (main_arg0 : FVec F S100000x1536 .f32) (main_arg1 : IVec S100000 32) (main_arg2 : FVec F S250000x128 .f32) (main_arg3 : FVec F S384x1536 .f32) (main_arg4 : FVec F S384x128 .f32) (main_arg5 : FVec F S384 .f32) (main_arg6 : FVec F S384 .f32) (main_arg7 : FVec F S2x1664 .f32) (main_arg8 : FVec F S2 .f32) : IVec S_ 1 :=
  let main_v0 : FVec F S100000x1536 .f32 := Host.absf main_arg0
  let main_cst : FVec F S_ .f32 := constant S_ .f32 0x7F800000#32
  let main_v1 : FVec F S100000x1536 .f32 := broadcastInDim S100000x1536 ![] bcast_S_S100000x1536 main_cst
  let main_v2 : IVec S100000x1536 1 := cmpf .olt main_v0 main_v1
  let main_c : IVec S_ 1 := constantI S_ 1 1#1
  let main_v3 : IVec S_ 1 := (fun x v => Host.reduce IntOp.andi x v reducesTo_S100000x1536_S_d0_1 h_S_) main_v2 main_c
  let main_v4 : FVec F S250000x128 .f32 := Host.absf main_arg2
  let main_cst_0 : FVec F S_ .f32 := constant S_ .f32 0x7F800000#32
  let main_v5 : FVec F S250000x128 .f32 := broadcastInDim S250000x128 ![] bcast_S_S250000x128 main_cst_0
  let main_v6 : IVec S250000x128 1 := cmpf .olt main_v4 main_v5
  let main_c_1 : IVec S_ 1 := constantI S_ 1 1#1
  let main_v7 : IVec S_ 1 := (fun x v => Host.reduce IntOp.andi x v reducesTo_S250000x128_S_d0_1 h_S_) main_v6 main_c_1
  let main_v8 : IVec S_ 1 := andi main_v3 main_v7
  let main_v9 : FVec F S384x1536 .f32 := Host.absf main_arg3
  let main_cst_2 : FVec F S_ .f32 := constant S_ .f32 0x7F800000#32
  let main_v10 : FVec F S384x1536 .f32 := broadcastInDim S384x1536 ![] bcast_S_S384x1536 main_cst_2
  let main_v11 : IVec S384x1536 1 := cmpf .olt main_v9 main_v10
  let main_c_3 : IVec S_ 1 := constantI S_ 1 1#1
  let main_v12 : IVec S_ 1 := (fun x v => Host.reduce IntOp.andi x v reducesTo_S384x1536_S_d0_1 h_S_) main_v11 main_c_3
  let main_v13 : IVec S_ 1 := andi main_v8 main_v12
  let main_v14 : FVec F S384x128 .f32 := Host.absf main_arg4
  let main_cst_4 : FVec F S_ .f32 := constant S_ .f32 0x7F800000#32
  let main_v15 : FVec F S384x128 .f32 := broadcastInDim S384x128 ![] bcast_S_S384x128 main_cst_4
  let main_v16 : IVec S384x128 1 := cmpf .olt main_v14 main_v15
  fn_part1 (F := F) main_arg1 main_arg5 main_arg6 main_arg7 main_arg8 main_v13 main_v16
-- ==== Kernel.lean ====
abbrev S100000x1536 : Shape := ⟨2, ![100000, 1536]⟩
abbrev S100000 : Shape := ⟨1, ![100000]⟩
abbrev S250000x128 : Shape := ⟨2, ![250000, 128]⟩
abbrev S384x1536 : Shape := ⟨2, ![384, 1536]⟩
abbrev S384x128 : Shape := ⟨2, ![384, 128]⟩
abbrev S384 : Shape := ⟨1, ![384]⟩
abbrev S2x1664 : Shape := ⟨2, ![2, 1664]⟩
abbrev S2 : Shape := ⟨1, ![2]⟩
abbrev S1536x384 : Shape := ⟨2, ![1536, 384]⟩
abbrev S128x384 : Shape := ⟨2, ![128, 384]⟩
abbrev S2x1536 : Shape := ⟨2, ![2, 1536]⟩
abbrev S1536x2 : Shape := ⟨2, ![1536, 2]⟩
abbrev S2x128 : Shape := ⟨2, ![2, 128]⟩
abbrev S128x2 : Shape := ⟨2, ![128, 2]⟩
abbrev S1x384 : Shape := ⟨2, ![1, 384]⟩
abbrev S1x2 : Shape := ⟨2, ![1, 2]⟩
abbrev S_ : Shape := ⟨0, ![]⟩
abbrev S100000x1 : Shape := ⟨2, ![100000, 1]⟩
abbrev S1 : Shape := ⟨1, ![1]⟩
abbrev S1x1 : Shape := ⟨2, ![1, 1]⟩
abbrev S100000x128 : Shape := ⟨2, ![100000, 128]⟩
abbrev S100000x2 : Shape := ⟨2, ![100000, 2]⟩
abbrev S2000x1536 : Shape := ⟨2, ![2000, 1536]⟩
abbrev S2000x128 : Shape := ⟨2, ![2000, 128]⟩
abbrev S2000x2 : Shape := ⟨2, ![2000, 2]⟩
abbrev S2000x384 : Shape := ⟨2, ![2000, 384]⟩

abbrev nBuf : Space → Nat
  | .hbm => 58
  | .vmem => 15
  | .smem => 0
  | _ => 0

abbrev bufTy : (tb : Table) → Fin (tcTables nBuf tb) → BufTy
  | .hbm, ⟨0, _⟩ => ⟨S100000x1536, .f32⟩
  | .hbm, ⟨1, _⟩ => ⟨S100000, .i32⟩
  | .hbm, ⟨2, _⟩ => ⟨S250000x128, .f32⟩
  | .hbm, ⟨3, _⟩ => ⟨S384x1536, .f32⟩
  | .hbm, ⟨4, _⟩ => ⟨S384x128, .f32⟩
  | .hbm, ⟨5, _⟩ => ⟨S384, .f32⟩
  | .hbm, ⟨6, _⟩ => ⟨S384, .f32⟩
  | .hbm, ⟨7, _⟩ => ⟨S2x1664, .f32⟩
  | .hbm, ⟨8, _⟩ => ⟨S2, .f32⟩
  | .hbm, ⟨9, _⟩ => ⟨S1536x384, .f32⟩
  | .hbm, ⟨10, _⟩ => ⟨S1536x384, .bf16⟩
  | .hbm, ⟨11, _⟩ => ⟨S128x384, .f32⟩
  | .hbm, ⟨12, _⟩ => ⟨S2x1536, .f32⟩
  | .hbm, ⟨13, _⟩ => ⟨S1536x2, .f32⟩
  | .hbm, ⟨14, _⟩ => ⟨S1536x2, .bf16⟩
  | .hbm, ⟨15, _⟩ => ⟨S2x128, .f32⟩
  | .hbm, ⟨16, _⟩ => ⟨S128x2, .f32⟩
  | .hbm, ⟨17, _⟩ => ⟨S1x384, .f32⟩
  | .hbm, ⟨18, _⟩ => ⟨S1x384, .f32⟩
  | .hbm, ⟨19, _⟩ => ⟨S1x2, .f32⟩
  | .hbm, ⟨20, _⟩ => ⟨S100000, .i32⟩
  | .hbm, ⟨21, _⟩ => ⟨S100000, .i1⟩
  | .hbm, ⟨22, _⟩ => ⟨S_, .i1⟩
  | .hbm, ⟨23, _⟩ => ⟨S_, .i1⟩
  | .hbm, ⟨24, _⟩ => ⟨S_, .i32⟩
  | .hbm, ⟨25, _⟩ => ⟨S100000, .i32⟩
  | .hbm, ⟨26, _⟩ => ⟨S100000, .i1⟩
  | .hbm, ⟨27, _⟩ => ⟨S_, .i32⟩
  | .hbm, ⟨28, _⟩ => ⟨S100000, .i32⟩
  | .hbm, ⟨29, _⟩ => ⟨S100000, .i32⟩
  | .hbm, ⟨30, _⟩ => ⟨S100000, .i32⟩
  | .hbm, ⟨31, _⟩ => ⟨S100000x1, .i32⟩
  | .hbm, ⟨32, _⟩ => ⟨S1, .i32⟩
  | .hbm, ⟨33, _⟩ => ⟨S_, .i32⟩
  | .hbm, ⟨34, _⟩ => ⟨S100000x1, .i32⟩
  | .hbm, ⟨35, _⟩ => ⟨S100000x1, .i1⟩
  | .hbm, ⟨36, _⟩ => ⟨S1x1, .i32⟩
  | .hbm, ⟨37, _⟩ => ⟨S100000x1, .i32⟩
  | .hbm, ⟨38, _⟩ => ⟨S100000x1, .i1⟩
  | .hbm, ⟨39, _⟩ => ⟨S100000x1, .i1⟩
  | .hbm, ⟨40, _⟩ => ⟨S_, .i1⟩
  | .hbm, ⟨41, _⟩ => ⟨S100000, .i1⟩
  | .hbm, ⟨42, _⟩ => ⟨S100000x128, .f32⟩
  | .hbm, ⟨43, _⟩ => ⟨S100000x128, .i1⟩
  | .hbm, ⟨44, _⟩ => ⟨S_, .f32⟩
  | .hbm, ⟨45, _⟩ => ⟨S100000x128, .f32⟩
  | .hbm, ⟨46, _⟩ => ⟨S100000x128, .f32⟩
  | .hbm, ⟨47, _⟩ => ⟨S100000x128, .f32⟩
  | .hbm, ⟨48, _⟩ => ⟨S100000x2, .f32⟩
  | .hbm, ⟨49, _⟩ => ⟨S_, .i32⟩
  | .hbm, ⟨50, _⟩ => ⟨S100000, .i32⟩
  | .hbm, ⟨51, _⟩ => ⟨S100000, .i1⟩
  | .hbm, ⟨52, _⟩ => ⟨S_, .i32⟩
  | .hbm, ⟨53, _⟩ => ⟨S100000, .i32⟩
  | .hbm, ⟨54, _⟩ => ⟨S100000, .i32⟩
  | .hbm, ⟨55, _⟩ => ⟨S100000, .i32⟩
  | .hbm, ⟨56, _⟩ => ⟨S100000x1, .i32⟩
  | .hbm, ⟨57, _⟩ => ⟨S250000x128, .f32⟩
  | .local _ .vmem, ⟨0, _⟩ => ⟨S2000x1536, .f32⟩
  | .local _ .vmem, ⟨1, _⟩ => ⟨S2000x1536, .f32⟩
  | .local _ .vmem, ⟨2, _⟩ => ⟨S2000x128, .f32⟩
  | .local _ .vmem, ⟨3, _⟩ => ⟨S2000x128, .f32⟩
  | .local _ .vmem, ⟨4, _⟩ => ⟨S1536x384, .bf16⟩
  | .local _ .vmem, ⟨5, _⟩ => ⟨S128x384, .f32⟩
  | .local _ .vmem, ⟨6, _⟩ => ⟨S1x384, .f32⟩
  | .local _ .vmem, ⟨7, _⟩ => ⟨S1x384, .f32⟩
  | .local _ .vmem, ⟨8, _⟩ => ⟨S1536x2, .bf16⟩
  | .local _ .vmem, ⟨9, _⟩ => ⟨S128x2, .f32⟩
  | .local _ .vmem, ⟨10, _⟩ => ⟨S1x2, .f32⟩
  | .local _ .vmem, ⟨11, _⟩ => ⟨S2000x128, .f32⟩
  | .local _ .vmem, ⟨12, _⟩ => ⟨S2000x128, .f32⟩
  | .local _ .vmem, ⟨13, _⟩ => ⟨S2000x2, .f32⟩
  | .local _ .vmem, ⟨14, _⟩ => ⟨S2000x2, .f32⟩
  | _, _ => ⟨S100000x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_c_1 : Ref sig .tc := ⟨.hbm, 32, rfl⟩
abbrev main_call0_c_2 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_3 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_call0_cst : Ref sig .tc := ⟨.hbm, 44, rfl⟩
abbrev main_call0_v15 : Ref sig .tc := ⟨.hbm, 45, rfl⟩
abbrev main_v14 : Ref sig .tc := ⟨.hbm, 46, rfl⟩
abbrev main_v15_0 : Ref sig .tc := ⟨.hbm, 47, rfl⟩
abbrev main_v15_1 : Ref sig .tc := ⟨.hbm, 48, rfl⟩
abbrev main_c_0 : Ref sig .tc := ⟨.hbm, 49, rfl⟩
abbrev main_v16 : Ref sig .tc := ⟨.hbm, 50, rfl⟩
abbrev main_v17 : Ref sig .tc := ⟨.hbm, 51, rfl⟩
abbrev main_c_1 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1536x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1536x2 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x2 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2000x2 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  transposes_S384x1536_S1536x384_1_0 : S384x1536.Transposes [1, 0] S1536x384
  bitsLt_bf16_f32 : FTy.bits .bf16 < FTy.bits .f32
  transposes_S384x128_S128x384_1_0 : S384x128.Transposes [1, 0] S128x384
  slices_S2x1664_S2x1536_0_0 : S2x1664.Slices ![0, 0] S2x1536
  transposes_S2x1536_S1536x2_1_0 : S2x1536.Transposes [1, 0] S1536x2
  slices_S2x1664_S2x128_0_1536 : S2x1664.Slices ![0, 1536] S2x128
  transposes_S2x128_S128x2_1_0 : S2x128.Transposes [1, 0] S128x2
  shapeCasts_S384_S1x384 : S384.ShapeCasts S1x384
  shapeCasts_S2_S1x2 : S2.ShapeCasts S1x2
  reducesTo_S100000_S_d0 : S100000.ReducesTo [0] S_
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  reducesTo_S100000x1_S100000_d1 : S100000x1.ReducesTo [1] S100000
  bcast_S100000_S100000x128_0 : S100000.BroadcastsInDim S100000x128 (![0] : Fin 1 → Fin S100000x128.rank)
  bcast_S_S100000x128 : S_.BroadcastsInDim S100000x128 (![] : Fin 0 → Fin S100000x128.rank)
  inb_S2000x1536_S2000x1536_0_0 : ∀ a, (![0, 0] : Fin 2 → Nat) a + S2000x1536.size a ≤ S2000x1536.size a
  h_S2000x1536 : 0 < S2000x1536.numel
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S1536x384_S1536x384_0_0 : ∀ a, (![0, 0] : Fin 2 → Nat) a + S1536x384.size a ≤ S1536x384.size a
  h_S1536x384 : 0 < S1536x384.numel
  shapeCasts_S1536x384_S1536x384 : S1536x384.ShapeCasts S1536x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S2000x384 : S1x384.Broadcasts S2000x384
  inb_S128x384_S128x384_0_0 : ∀ a, (![0, 0] : Fin 2 → Nat) a + S128x384.size a ≤ S128x384.size a
  h_S128x384 : 0 < S128x384.numel
  shapeCasts_S128x384_S128x384 : S128x384.ShapeCasts S128x384
  slices_S2000x384_o0_0_S2000x128 : S2000x384.Slices ![0, 0] S2000x128
  slices_S2000x384_o0_128_S2000x128 : S2000x384.Slices ![0, 128] S2000x128
  slices_S2000x384_o0_256_S2000x128 : S2000x384.Slices ![0, 256] S2000x128
  inb_S1536x2_S1536x2_0_0 : ∀ a, (![0, 0] : Fin 2 → Nat) a + S1536x2.size a ≤ S1536x2.size a
  h_S1536x2 : 0 < S1536x2.numel
  shapeCasts_S1536x2_S1536x2 : S1536x2.ShapeCasts S1536x2
  inb_S128x2_S128x2_0_0 : ∀ a, (![0, 0] : Fin 2 → Nat) a + S128x2.size a ≤ S128x2.size a
  h_S128x2 : 0 < S128x2.numel
  shapeCasts_S128x2_S128x2 : S128x2.ShapeCasts S128x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2000x2 : S1x2.Broadcasts S2000x2
  inb_S2000x2_S2000x2_0_0 : ∀ a, (![0, 0] : Fin 2 → Nat) a + S2000x2.size a ≤ S2000x2.size a
  h_S2000x2 : 0 < S2000x2.numel
  gather_S250000x128_S100000x1_S100000x128_1_0_n_n_0_1_1128_wf : GatherDims.WF S250000x128 S100000x1 S100000x128 [1] [0] [] [0] [] 1 ![1, 128]
  dot_S2000x1536_S1536x384_S2000x384_1_0_0_1_n_n_wf : DotDims.WF S2000x1536 S1536x384 S2000x384 [1] [0] [0] [1] [] []
  dot_S2000x128_S128x384_S2000x384_1_0_0_1_n_n_wf : DotDims.WF S2000x128 S128x384 S2000x384 [1] [0] [0] [1] [] []
  dot_S2000x1536_S1536x2_S2000x2_1_0_0_1_n_n_wf : DotDims.WF S2000x1536 S1536x2 S2000x2 [1] [0] [0] [1] [] []
  dot_S2000x128_S128x2_S2000x2_1_0_0_1_n_n_wf : DotDims.WF S2000x128 S128x2 S2000x2 [1] [0] [0] [1] [] []
  scatter_S250000x128_S100000x1_S100000x128_1_0_0_1_wf : ScatterDims.WF S250000x128 S100000x1 S100000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1536.size a ≤ S100000x1536.size a
  hwx0_0 : ∀ i : grid0.Coords, EltTy.bits .f32 = 32 ∨ (Rect.block (s := S100000x1536) S2000x1536.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1536x384.size a ≤ S1536x384.size a
  hwx0_2 : ∀ i : grid0.Coords, EltTy.bits .bf16 = 32 ∨ (Rect.block (s := S1536x384) S1536x384.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x384.size a ≤ S128x384.size a
  hwx0_3 : ∀ i : grid0.Coords, EltTy.bits .f32 = 32 ∨ (Rect.block (s := S128x384) S128x384.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x384.size a ≤ S1x384.size a
  hwx0_4 : ∀ i : grid0.Coords, EltTy.bits .f32 = 32 ∨ (Rect.block (s := S1x384) S1x384.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x384.size a ≤ S1x384.size a
  hwx0_5 : ∀ i : grid0.Coords, EltTy.bits .f32 = 32 ∨ (Rect.block (s := S1x384) S1x384.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1536x2.size a ≤ S1536x2.size a
  hwx0_6 : ∀ i : grid0.Coords, EltTy.bits .bf16 = 32 ∨ (Rect.block (s := S1536x2) S1536x2.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x2.size a ≤ S128x2.size a
  hwx0_7 : ∀ i : grid0.Coords, EltTy.bits .f32 = 32 ∨ (Rect.block (s := S128x2) S128x2.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x2.size a ≤ S1x2.size a
  hwx0_8 : ∀ i : grid0.Coords, EltTy.bits .f32 = 32 ∨ (Rect.block (s := S1x2) S1x2.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x128.size a ≤ S100000x128.size a
  hwx0_9 : ∀ i : grid0.Coords, EltTy.bits .f32 = 32 ∨ (Rect.block (s := S100000x128) S2000x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x2.size a ≤ S100000x2.size a
  hwx0_10 : ∀ i : grid0.Coords, EltTy.bits .f32 = 32 ∨ (Rect.block (s := S100000x2) S2000x2.size (cc0_transform_10 i) (hinb0_10 i)).WholeWords (EltTy.packing .f32)

variable [Facts₀]

def gather_S250000x128_S100000x1_S100000x128_1_0_n_n_0_1_1128 : GatherDims S250000x128 S100000x1 S100000x128 where
  offsetDims := [1]
  collapsedSliceDims := [0]
  operandBatchingDims := []
  startIndicesBatchingDims := []
  startIndexMap := [0]
  indexVectorDim := 1
  sliceSizes := ![1, 128]
  wf := gather_S250000x128_S100000x1_S100000x128_1_0_n_n_0_1_1128_wf
def dot_S2000x1536_S1536x384_S2000x384_1_0_0_1_n_n : DotDims S2000x1536 S1536x384 S2000x384 where
  lhsContracting := [1]
  rhsContracting := [0]
  lhsNonContracting := [0]
  rhsNonContracting := [1]
  lhsBatch := []
  rhsBatch := []
  wf := dot_S2000x1536_S1536x384_S2000x384_1_0_0_1_n_n_wf
def dot_S2000x128_S128x384_S2000x384_1_0_0_1_n_n : DotDims S2000x128 S128x384 S2000x384 where
  lhsContracting := [1]
  rhsContracting := [0]
  lhsNonContracting := [0]
  rhsNonContracting := [1]
  lhsBatch := []
  rhsBatch := []
  wf := dot_S2000x128_S128x384_S2000x384_1_0_0_1_n_n_wf
def dot_S2000x1536_S1536x2_S2000x2_1_0_0_1_n_n : DotDims S2000x1536 S1536x2 S2000x2 where
  lhsContracting := [1]
  rhsContracting := [0]
  lhsNonContracting := [0]
  rhsNonContracting := [1]
  lhsBatch := []
  rhsBatch := []
  wf := dot_S2000x1536_S1536x2_S2000x2_1_0_0_1_n_n_wf
def dot_S2000x128_S128x2_S2000x2_1_0_0_1_n_n : DotDims S2000x128 S128x2 S2000x2 where
  lhsContracting := [1]
  rhsContracting := [0]
  lhsNonContracting := [0]
  rhsNonContracting := [1]
  lhsBatch := []
  rhsBatch := []
  wf := dot_S2000x128_S128x2_S2000x2_1_0_0_1_n_n_wf
def scatter_S250000x128_S100000x1_S100000x128_1_0_0_1 : ScatterDims S250000x128 S100000x1 S100000x128 where
  updateWindowDims := [1]
  insertedWindowDims := [0]
  scatterDimsToOperandDims := [0]
  indexVectorDim := 1
  wf := scatter_S250000x128_S100000x1_S100000x128_1_0_0_1_wf

abbrev win0_0 : Pipeline.Window sig grid0 :=
  Pipeline.Window.ofSpec (Memref.whole main_arg0) S2000x1536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1536x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S128x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x384.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1536x2.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S128x2.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S1x2.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v15_0) S2000x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v15_1) S2000x2.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S100000x1536 : Shape := ⟨2, ![100000, 1536]⟩
abbrev S100000 : Shape := ⟨1, ![100000]⟩
abbrev S250000x128 : Shape := ⟨2, ![250000, 128]⟩
abbrev S384x1536 : Shape := ⟨2, ![384, 1536]⟩
abbrev S384x128 : Shape := ⟨2, ![384, 128]⟩
abbrev S384 : Shape := ⟨1, ![384]⟩
abbrev S2x1664 : Shape := ⟨2, ![2, 1664]⟩
abbrev S2 : Shape := ⟨1, ![2]⟩
abbrev S_ : Shape := ⟨0, ![]⟩
abbrev S100000x1 : Shape := ⟨2, ![100000, 1]⟩
abbrev S100000x128 : Shape := ⟨2, ![100000, 128]⟩
abbrev S1536x384 : Shape := ⟨2, ![1536, 384]⟩
abbrev S100000x384 : Shape := ⟨2, ![100000, 384]⟩
abbrev S1x384 : Shape := ⟨2, ![1, 384]⟩
abbrev S128x384 : Shape := ⟨2, ![128, 384]⟩
abbrev S100000x1664 : Shape := ⟨2, ![100000, 1664]⟩
abbrev S1664x2 : Shape := ⟨2, ![1664, 2]⟩
abbrev S100000x2 : Shape := ⟨2, ![100000, 2]⟩
abbrev S1x2 : Shape := ⟨2, ![1, 2]⟩

abbrev nBuf : Space → Nat
  | .hbm => 76
  | .vmem => 0
  | .smem => 0
  | _ => 0

abbrev bufTy : (tb : Table) → Fin (tcTables nBuf tb) → BufTy
  | .hbm, ⟨0, _⟩ => ⟨S100000x1536, .f32⟩
  | .hbm, ⟨1, _⟩ => ⟨S100000, .i32⟩
  | .hbm, ⟨2, _⟩ => ⟨S250000x128, .f32⟩
  | .hbm, ⟨3, _⟩ => ⟨S384x1536, .f32⟩
  | .hbm, ⟨4, _⟩ => ⟨S384x128, .f32⟩
  | .hbm, ⟨5, _⟩ => ⟨S384, .f32⟩
  | .hbm, ⟨6, _⟩ => ⟨S384, .f32⟩
  | .hbm, ⟨7, _⟩ => ⟨S2x1664, .f32⟩
  | .hbm, ⟨8, _⟩ => ⟨S2, .f32⟩
  | .hbm, ⟨9, _⟩ => ⟨S_, .i32⟩
  | .hbm, ⟨10, _⟩ => ⟨S100000, .i32⟩
  | .hbm, ⟨11, _⟩ => ⟨S100000, .i1⟩
  | .hbm, ⟨12, _⟩ => ⟨S_, .i32⟩
  | .hbm, ⟨13, _⟩ => ⟨S100000, .i32⟩
  | .hbm, ⟨14, _⟩ => ⟨S100000, .i32⟩
  | .hbm, ⟨15, _⟩ => ⟨S100000, .i32⟩
  | .hbm, ⟨16, _⟩ => ⟨S100000x1, .i32⟩
  | .hbm, ⟨17, _⟩ => ⟨S100000x128, .f32⟩
  | .hbm, ⟨18, _⟩ => ⟨S1536x384, .f32⟩
  | .hbm, ⟨19, _⟩ => ⟨S100000x384, .f32⟩
  | .hbm, ⟨20, _⟩ => ⟨S1x384, .f32⟩
  | .hbm, ⟨21, _⟩ => ⟨S100000x384, .f32⟩
  | .hbm, ⟨22, _⟩ => ⟨S100000x384, .f32⟩
  | .hbm, ⟨23, _⟩ => ⟨S128x384, .f32⟩
  | .hbm, ⟨24, _⟩ => ⟨S100000x384, .f32⟩
  | .hbm, ⟨25, _⟩ => ⟨S1x384, .f32⟩
  | .hbm, ⟨26, _⟩ => ⟨S100000x384, .f32⟩
  | .hbm, ⟨27, _⟩ => ⟨S100000x384, .f32⟩
  | .hbm, ⟨28, _⟩ => ⟨S100000x128, .f32⟩
  | .hbm, ⟨29, _⟩ => ⟨S100000x128, .f32⟩
  | .hbm, ⟨30, _⟩ => ⟨S100000x128, .f32⟩
  | .hbm, ⟨31, _⟩ => ⟨S100000x128, .f32⟩
  | .hbm, ⟨32, _⟩ => ⟨S100000x128, .f32⟩
  | .hbm, ⟨33, _⟩ => ⟨S100000x128, .f32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S_, .f32⟩
  | .hbm, ⟨38, _⟩ => ⟨S100000x128, .f32⟩
  | .hbm, ⟨39, _⟩ => ⟨S100000x128, .f32⟩
  | .hbm, ⟨40, _⟩ => ⟨S_, .f32⟩
  | .hbm, ⟨41, _⟩ => ⟨S100000x128, .f32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S100000x128, .f32⟩
  | .hbm, ⟨46, _⟩ => ⟨S_, .f32⟩
  | .hbm, ⟨47, _⟩ => ⟨S100000x128, .f32⟩
  | .hbm, ⟨48, _⟩ => ⟨S100000x128, .f32⟩
  | .hbm, ⟨49, _⟩ => ⟨S_, .f32⟩
  | .hbm, ⟨50, _⟩ => ⟨S100000x128, .f32⟩
  | .hbm, ⟨51, _⟩ => ⟨S100000x128, .f32⟩
  | .hbm, ⟨52, _⟩ => ⟨S100000x128, .f32⟩
  | .hbm, ⟨53, _⟩ => ⟨S100000x128, .f32⟩
  | .hbm, ⟨54, _⟩ => ⟨S100000x128, .f32⟩
  | .hbm, ⟨55, _⟩ => ⟨S_, .f32⟩
  | .hbm, ⟨56, _⟩ => ⟨S100000x128, .f32⟩
  | .hbm, ⟨57, _⟩ => ⟨S100000x128, .f32⟩
  | .hbm, ⟨58, _⟩ => ⟨S100000x128, .f32⟩
  | .hbm, ⟨59, _⟩ => ⟨S100000x128, .f32⟩
  | .hbm, ⟨60, _⟩ => ⟨S100000x128, .f32⟩
  | .hbm, ⟨61, _⟩ => ⟨S_, .i32⟩
  | .hbm, ⟨62, _⟩ => ⟨S100000, .i32⟩
  | .hbm, ⟨63, _⟩ => ⟨S100000, .i1⟩
  | .hbm, ⟨64, _⟩ => ⟨S_, .i32⟩
  | .hbm, ⟨65, _⟩ => ⟨S100000, .i32⟩
  | .hbm, ⟨66, _⟩ => ⟨S100000, .i32⟩
  | .hbm, ⟨67, _⟩ => ⟨S100000, .i32⟩
  | .hbm, ⟨68, _⟩ => ⟨S100000x1, .i32⟩
  | .hbm, ⟨69, _⟩ => ⟨S250000x128, .f32⟩
  | .hbm, ⟨70, _⟩ => ⟨S100000x1664, .f32⟩
  | .hbm, ⟨71, _⟩ => ⟨S1664x2, .f32⟩
  | .hbm, ⟨72, _⟩ => ⟨S100000x2, .f32⟩
  | .hbm, ⟨73, _⟩ => ⟨S1x2, .f32⟩
  | .hbm, ⟨74, _⟩ => ⟨S100000x2, .f32⟩
  | .hbm, ⟨75, _⟩ => ⟨S100000x2, .f32⟩
  | _, _ => ⟨S100000x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst : Ref sig .tc := ⟨.hbm, 37, rfl⟩
abbrev main_v26 : Ref sig .tc := ⟨.hbm, 38, rfl⟩
abbrev main_v27 : Ref sig .tc := ⟨.hbm, 39, rfl⟩
abbrev main_cst_1 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_2 : Ref sig .tc := ⟨.hbm, 46, rfl⟩
abbrev main_v33 : Ref sig .tc := ⟨.hbm, 47, rfl⟩
abbrev main_v34 : Ref sig .tc := ⟨.hbm, 48, rfl⟩
abbrev main_cst_3 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_4 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_5 : Ref sig .tc := ⟨.hbm, 61, rfl⟩
abbrev main_v45 : Ref sig .tc := ⟨.hbm, 62, rfl⟩
abbrev main_v46 : Ref sig .tc := ⟨.hbm, 63, rfl⟩
abbrev main_c_6 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  transposes_S384x1536_S1536x384_1_0 : S384x1536.Transposes [1, 0] S1536x384
  bcast_S384_S1x384_1 : S384.BroadcastsInDim S1x384 (![1] : Fin 1 → Fin S1x384.rank)
  bcast_S1x384_S100000x384_0_1 : S1x384.BroadcastsInDim S100000x384 (![0, 1] : Fin 2 → Fin S100000x384.rank)
  transposes_S384x128_S128x384_1_0 : S384x128.Transposes [1, 0] S128x384
  slices_S100000x384_S100000x128_0_0 : S100000x384.Slices ![0, 0] S100000x128
  slices_S100000x384_S100000x128_0_128 : S100000x384.Slices ![0, 128] S100000x128
  slices_S100000x384_S100000x128_0_256 : S100000x384.Slices ![0, 256] S100000x128
  bcast_S_S100000x128 : S_.BroadcastsInDim S100000x128 (![] : Fin 0 → Fin S100000x128.rank)
  concatenates_S100000x1536_S100000x128_S100000x1664_d1 : Shape.Concatenates [S100000x1536, S100000x128] S100000x1664 1
  transposes_S2x1664_S1664x2_1_0 : S2x1664.Transposes [1, 0] S1664x2
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  gather_S250000x128_S100000x1_S100000x128_1_0_n_n_0_1_1128_wf : GatherDims.WF S250000x128 S100000x1 S100000x128 [1] [0] [] [0] [] 1 ![1, 128]
  dot_S100000x1536_S1536x384_S100000x384_1_0_0_1_n_n_wf : DotDims.WF S100000x1536 S1536x384 S100000x384 [1] [0] [0] [1] [] []
  dot_S100000x128_S128x384_S100000x384_1_0_0_1_n_n_wf : DotDims.WF S100000x128 S128x384 S100000x384 [1] [0] [0] [1] [] []
  scatter_S250000x128_S100000x1_S100000x128_1_0_0_1_wf : ScatterDims.WF S250000x128 S100000x1 S100000x128 [1] [0] [0] 1
  dot_S100000x1664_S1664x2_S100000x2_1_0_0_1_n_n_wf : DotDims.WF S100000x1664 S1664x2 S100000x2 [1] [0] [0] [1] [] []

variable [Facts₀]

def gather_S250000x128_S100000x1_S100000x128_1_0_n_n_0_1_1128 : GatherDims S250000x128 S100000x1 S100000x128 where
  offsetDims := [1]
  collapsedSliceDims := [0]
  operandBatchingDims := []
  startIndicesBatchingDims := []
  startIndexMap := [0]
  indexVectorDim := 1
  sliceSizes := ![1, 128]
  wf := gather_S250000x128_S100000x1_S100000x128_1_0_n_n_0_1_1128_wf
def dot_S100000x1536_S1536x384_S100000x384_1_0_0_1_n_n : DotDims S100000x1536 S1536x384 S100000x384 where
  lhsContracting := [1]
  rhsContracting := [0]
  lhsNonContracting := [0]
  rhsNonContracting := [1]
  lhsBatch := []
  rhsBatch := []
  wf := dot_S100000x1536_S1536x384_S100000x384_1_0_0_1_n_n_wf
def dot_S100000x128_S128x384_S100000x384_1_0_0_1_n_n : DotDims S100000x128 S128x384 S100000x384 where
  lhsContracting := [1]
  rhsContracting := [0]
  lhsNonContracting := [0]
  rhsNonContracting := [1]
  lhsBatch := []
  rhsBatch := []
  wf := dot_S100000x128_S128x384_S100000x384_1_0_0_1_n_n_wf
def scatter_S250000x128_S100000x1_S100000x128_1_0_0_1 : ScatterDims S250000x128 S100000x1 S100000x128 where
  updateWindowDims := [1]
  insertedWindowDims := [0]
  scatterDimsToOperandDims := [0]
  indexVectorDim := 1
  wf := scatter_S250000x128_S100000x1_S100000x128_1_0_0_1_wf
def dot_S100000x1664_S1664x2_S100000x2_1_0_0_1_n_n : DotDims S100000x1664 S1664x2 S100000x2 where
  lhsContracting := [1]
  rhsContracting := [0]
  lhsNonContracting := [0]
  rhsNonContracting := [1]
  lhsBatch := []
  rhsBatch := []
  wf := dot_S100000x1664_S1664x2_S100000x2_1_0_0_1_n_n_wf

class Facts : Prop extends Facts₀ where

variable [Facts]
-- ==== Proof.Spec.lean ====
/-
  The two results as functions of matrices of extended reals, row by row.

  A row `i` of the inputs `X` (1536 wide) and of the previous memory `P` (128 wide) meets the gate weights
  `W` (1536 × 384), `Wh` (128 × 384) — three gates of 128 columns each — and the bias rows `b`, `bh`:
    gi j = (∑ k, X i k · W k j) + b j                gh j = (∑ k, P i k · Wh k j) + bh j
    r = σ (gi q + gh q)      z = σ (gi (128+q) + gh (128+q))      n = tanh (gi (256+q) + r · gh (256+q))
    newMem i q = (1 − z) · n + z · P i q
  and the classifier sees the row `[X i ; newMem i]` through its two weight parts `Ce` (1536 × 2), `Cm` (128 × 2):
    logits i c = ((∑ k, X i k · Ce k c) + (∑ k, newMem i k · Cm k c)) + cb c.
  `σ` is the logistic function `1 / (1 + e^(−x))`; every operation is the extended reals' own. Both are
  functions of row `i` alone, for any number of rows: a block of rows computes what the whole array computes there.
-/
import Idealize.ShloMosaic.PureOps.Ideal
import Idealize.ShloMosaic.Lib.ValueIdx

noncomputable section

namespace Cert.Spec

open Idealize.ShloMosaic Idealize.ShloMosaic.ValueIdx

/-- A matrix of extended reals. -/
abbrev Mat (a b : Nat) : Type := (⟨2, ![a, b]⟩ : Shape).Idx → EReal

/-- The number one as both programs spell it: the 32-bit pattern of `1.0`. -/
abbrev one : EReal := Ideal.ofBits .f32 0x3F800000#32

/-- Column `o + q` of a 384-wide row: gate `o / 128`, lane `q`. -/
def col (o : Nat) (h : o + 128 ≤ 384) (q : Fin 128) : Fin 384 := ⟨o + q.val, by have := q.isLt; omega⟩

/-- One gate pre-activation: row `i` of `X` against column `j` of `W`, plus the bias row at `j`. -/
def gate {N K : Nat} (X : Mat N K) (W : Mat K 384) (b : Mat 1 384) (i : Fin N) (j : Fin 384) : EReal :=
  (∑ k : Fin K, X (ix2 i k) * W (ix2 k j)) + b (ix2 (0 : Fin 1) j)

/-- The updated memory row `i` at lane `q`. -/
def newMem {N : Nat} (X : Mat N 1536) (P : Mat N 128) (W : Mat 1536 384) (Wh : Mat 128 384) (b bh : Mat 1 384)
    (i : Fin N) (q : Fin 128) : EReal :=
  (one - Ideal.logistic (gate X W b i (col 128 (by omega) q) + gate P Wh bh i (col 128 (by omega) q)))
      * Ideal.tanh (gate X W b i (col 256 (by omega) q)
          + Ideal.logistic (gate X W b i (col 0 (by omega) q) + gate P Wh bh i (col 0 (by omega) q)) * gate P Wh bh i (col 256 (by omega) q))
    + Ideal.logistic (gate X W b i (col 128 (by omega) q) + gate P Wh bh i (col 128 (by omega) q)) * P (ix2 i q)

/-- The updated rows as an array. -/
def newMemArr {N : Nat} (X : Mat N 1536) (P : Mat N 128) (W : Mat 1536 384) (Wh : Mat 128 384) (b bh : Mat 1 384) : Mat N 128 :=
  fun j => newMem X P W Wh b bh (j 0) (j 1)

/-- The classifier's output for row `i`, class `c`, from the inputs and the updated rows `NM`. -/
def logits {N : Nat} (X : Mat N 1536) (NM : Mat N 128) (Ce : Mat 1536 2) (Cm : Mat 128 2) (cb : Mat 1 2) (i : Fin N) (c : Fin 2) : EReal :=
  ((∑ k : Fin 1536, X (ix2 i k) * Ce (ix2 k c)) + (∑ k : Fin 128, NM (ix2 i k) * Cm (ix2 k c))) + cb (ix2 (0 : Fin 1) c)

/-- The logits as an array. -/
def logitsArr {N : Nat} (X : Mat N 1536) (NM : Mat N 128) (Ce : Mat 1536 2) (Cm : Mat 128 2) (cb : Mat 1 2) : Mat N 2 :=
  fun j => logits X NM Ce Cm cb (j 0) (j 1)

/-! ## The parameters as both programs lay them out, from the argument arrays -/

/-- A vector of extended reals. -/
abbrev Vct (a : Nat) : Type := (⟨1, ![a]⟩ : Shape).Idx → EReal

/-- A weight matrix transposed: entry `(k, j)` is the argument's `(j, k)`. -/
def tr {a b : Nat} (W : Mat a b) : Mat b a := fun j => W (ix2 (j 1) (j 0))

/-- A vector as a one-row matrix. -/
def rowOf {a : Nat} (v : Vct a) : Mat 1 a := fun j => v (ix1 (j 1))

/-- Column `k` of the first part of a row of length 1536 + 128. -/
def colE (k : Fin 1536) : Fin 1664 := ⟨k.val, by have := k.isLt; omega⟩
/-- Column `1536 + k` of the second part. -/
def colM (k : Fin 128) : Fin 1664 := ⟨1536 + k.val, by have := k.isLt; omega⟩

/-- The classifier's weights on the inputs, transposed: entry `(k, c)` is `Cw (c, k)`. -/
def ceT (Cw : Mat 2 1664) : Mat 1536 2 := fun j => Cw (ix2 (j 1) (colE (j 0)))
/-- The classifier's weights on the updated memory row, transposed: entry `(k, c)` is `Cw (c, 1536 + k)`. -/
def cmT (Cw : Mat 2 1664) : Mat 128 2 := fun j => Cw (ix2 (j 1) (colM (j 0)))

/-- The updated rows, from the argument arrays and the gathered rows `P`. -/
def NM (E : Mat 100000 1536) (P : Mat 100000 128) (Wih : Mat 384 1536) (Whh : Mat 384 128) (bih bhh : Vct 384) : Mat 100000 128 :=
  newMemArr E P (tr Wih) (tr Whh) (rowOf bih) (rowOf bhh)

/-- The logits, from the argument arrays and the gathered rows `P`. -/
def LG (E : Mat 100000 1536) (P : Mat 100000 128) (Wih : Mat 384 1536) (Whh : Mat 384 128) (bih bhh : Vct 384)
    (Cw : Mat 2 1664) (cb : Vct 2) : Mat 100000 2 :=
  logitsArr E (NM E P Wih Whh bih bhh) (ceT Cw) (cmT Cw) (rowOf cb)

/-! ## Both are functions of the row alone -/

theorem gate_congr {N N' K : Nat} (X : Mat N K) (X' : Mat N' K) (W : Mat K 384) (b : Mat 1 384) (i : Fin N) (i' : Fin N')
    (hX : ∀ k, X (ix2 i k) = X' (ix2 i' k)) (j : Fin 384) : gate X W b i j = gate X' W b i' j := by
  unfold gate
  rw [Finset.sum_congr rfl fun k _ => by rw [hX k]]

theorem newMem_congr {N N' : Nat} (X : Mat N 1536) (P : Mat N 128) (X' : Mat N' 1536) (P' : Mat N' 128)
    (W : Mat 1536 384) (Wh : Mat 128 384) (b bh : Mat 1 384) (i : Fin N) (i' : Fin N')
    (hX : ∀ k, X (ix2 i k) = X' (ix2 i' k)) (hP : ∀ k, P (ix2 i k) = P' (ix2 i' k)) (q : Fin 128) :
    newMem X P W Wh b bh i q = newMem X' P' W Wh b bh i' q := by
  unfold newMem
  rw [gate_congr X X' W b i i' hX, gate_congr X X' W b i i' hX, gate_congr X X' W b i i' hX,
    gate_congr P P' Wh bh i i' hP, gate_congr P P' Wh bh i i' hP, gate_congr P P' Wh bh i i' hP, hP q]

theorem logits_congr {N N' : Nat} (X : Mat N 1536) (NM : Mat N 128) (X' : Mat N' 1536) (NM' : Mat N' 128)
    (Ce : Mat 1536 2) (Cm : Mat 128 2) (cb : Mat 1 2) (i : Fin N) (i' : Fin N')
    (hX : ∀ k, X (ix2 i k) = X' (ix2 i' k)) (hN : ∀ k, NM (ix2 i k) = NM' (ix2 i' k)) (c : Fin 2) :
    logits X NM Ce Cm cb i c = logits X' NM' Ce Cm cb i' c := by
  unfold logits
  simp only [hX, hN]

/-! ## A row of length 1536 + 128 -/

/-- A sum over the concatenated row splits into the sums over its two parts. -/
theorem sum_split (f : Fin 1664 → EReal) :
    ∑ k : Fin 1664, f k = (∑ k : Fin 1536, f (colE k)) + (∑ k : Fin 128, f (colM k)) := by
  have h := Fin.sum_univ_add (a := 1536) (b := 128) (fun k : Fin (1536 + 128) => f k)
  exact h

end Cert.Spec

end
-- ==== Proof.LibDot.lean ====
/-
  A plain matrix product read at an index, at the ideal values.

  For dimension numbers that contract the left operand's axis 1 with the right operand's axis 0 and keep the
  left's axis 0 and the right's axis 1, with no batch axis — an `M × K` by `K × N` product —, the result at
  `(a, b)` is `∑ k, l (a, k) · r (k, b)` over `k : Fin K`: for the kernel's matrix unit accumulating into a
  zero vector and for the host's `dot_general` alike. The library states both as a sum over the contraction
  shape's indices at the operand indices `lhsIdx` / `rhsIdx`; here those are read off, coordinate by
  coordinate, and the sum is re-indexed by the contraction shape's one coordinate.
-/
import Idealize.ShloMosaic.PureOps.Ideal.Laws
import Idealize.ShloMosaic.Lib.ValueIdx

noncomputable section

namespace Cert.LibDot

open Idealize.ShloMosaic Idealize.ShloMosaic.ValueIdx

variable {M K N : Nat} (D : DotDims ⟨2, ![M, K]⟩ ⟨2, ![K, N]⟩ ⟨2, ![M, N]⟩)

/-- The left operand's row is the result's row. -/
theorem lhs_row (hlb : D.lhsBatch = []) (hln : D.lhsNonContracting = [0]) (j : (⟨2, ![M, N]⟩ : Shape).Idx) (k : D.contr.Idx) :
    (D.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column is the contraction coordinate. -/
theorem lhs_col (hlc : D.lhsContracting = [1]) (j : (⟨2, ![M, N]⟩ : Shape).Idx) (k : D.contr.Idx) :
    (D.lhsIdx j k 1).val = (k ⟨0, by rw [D.rank_contr, hlc]; exact Nat.one_pos⟩).val :=
  D.lhsIdx_val_of_single hlc j k

/-- The right operand's row is the contraction coordinate. -/
theorem rhs_row (hrc : D.rhsContracting = [0]) (j : (⟨2, ![M, N]⟩ : Shape).Idx) (k : D.contr.Idx) :
    (D.rhsIdx j k 0).val = (k ⟨0, by rw [D.rank_contr, ← D.length_contracting, hrc]; exact Nat.one_pos⟩).val :=
  D.rhsIdx_val_of_single hrc j k

/-- The right operand's column is the result's column. -/
theorem rhs_col (hlb : D.lhsBatch = []) (hrb : D.rhsBatch = []) (hln : D.lhsNonContracting = [0]) (hrn : D.rhsNonContracting = [1])
    (j : (⟨2, ![M, N]⟩ : Shape).Idx) (k : D.contr.Idx) :
    (D.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The contraction shape has one axis, of extent `K`. -/
theorem contr_rank (hlc : D.lhsContracting = [1]) : D.contr.rank = 1 := by rw [D.rank_contr, hlc]; rfl

theorem contr_size (hlc : D.lhsContracting = [1]) :
    D.contr.size ⟨0, by rw [contr_rank D hlc]; exact Nat.one_pos⟩ = K := by
  have h := D.size_contr 0 (by rw [hlc]; exact Nat.one_pos)
  rw [h]
  simp [hlc]

/-- The library's sum over the contraction indices, as the sum over `Fin K` of the products along row `a` of the left
    operand and column `b` of the right. -/
theorem sum_plain (hlc : D.lhsContracting = [1]) (hrc : D.rhsContracting = [0]) (hln : D.lhsNonContracting = [0])
    (hrn : D.rhsNonContracting = [1]) (hlb : D.lhsBatch = []) (hrb : D.rhsBatch = [])
    (l : (⟨2, ![M, K]⟩ : Shape).Idx → EReal) (r : (⟨2, ![K, N]⟩ : Shape).Idx → EReal) (a : Fin M) (b : Fin N) :
    ∑ k : D.contr.Idx, l (D.lhsIdx (ix2 a b) k) * r (D.rhsIdx (ix2 a b) k) = ∑ k : Fin K, l (ix2 a k) * r (ix2 k b) := by
  rw [← Equiv.sum_comp (contrEquiv1 D K (contr_rank D hlc) (contr_size D hlc)).symm]
  refine Finset.sum_congr rfl fun k _ => ?_
  have hk := contrEquiv1_symm_val D K (contr_rank D hlc) (contr_size D hlc) k
  have e1 : D.lhsIdx (ix2 a b) ((contrEquiv1 D K (contr_rank D hlc) (contr_size D hlc)).symm k) = ix2 a k := by
    funext x; refine Fin.ext ?_
    match x with
    | ⟨0, _⟩ => exact lhs_row D hlb hln _ _
    | ⟨1, _⟩ => exact (lhs_col D hlc _ _).trans hk
  have e2 : D.rhsIdx (ix2 a b) ((contrEquiv1 D K (contr_rank D hlc) (contr_size D hlc)).symm k) = ix2 k b := by
    funext x; refine Fin.ext ?_
    match x with
    | ⟨0, _⟩ => exact (rhs_row D hrc _ _).trans hk
    | ⟨1, _⟩ => exact rhs_col D hlb hrb hln hrn _ _
  rw [e1, e2]

/-- The kernel's matrix product into a zero accumulator, read at `(a, b)`. -/
theorem matmul_plain_apply {φ₁ φ₂ : FTy} (hlc : D.lhsContracting = [1]) (hrc : D.rhsContracting = [0]) (hln : D.lhsNonContracting = [0])
    (hrn : D.rhsNonContracting = [1]) (hlb : D.lhsBatch = []) (hrb : D.rhsBatch = []) (prec : Option ContractPrecision)
    (l : FVec Ideal ⟨2, ![M, K]⟩ φ₁) (r : FVec Ideal ⟨2, ![K, N]⟩ φ₂) (a : Fin M) (b : Fin N) :
    matmul D prec l r (constant ⟨2, ![M, N]⟩ .f32 0x00000000#32) (ix2 a b) = ∑ k : Fin K, l (ix2 a k) * r (ix2 k b) := by
  show FloatOps.matmul D prec l r (constant ⟨2, ![M, N]⟩ .f32 0x00000000#32) (ix2 a b) = _
  rw [Ideal.matmul_constant_zero_apply]
  exact sum_plain D hlc hrc hln hrn hlb hrb l r a b

/-- The host's product read at `(a, b)`. -/
theorem dotGeneral_plain_apply {φ₁ φ₂ : FTy} (hlc : D.lhsContracting = [1]) (hrc : D.rhsContracting = [0]) (hln : D.lhsNonContracting = [0])
    (hrn : D.rhsNonContracting = [1]) (hlb : D.lhsBatch = []) (hrb : D.rhsBatch = []) (prec : Option ContractPrecision)
    (l : FVec Ideal ⟨2, ![M, K]⟩ φ₁) (r : FVec Ideal ⟨2, ![K, N]⟩ φ₂) (a : Fin M) (b : Fin N) :
    Host.dotGeneral D prec l r (ix2 a b) = ∑ k : Fin K, l (ix2 a k) * r (ix2 k b) := by
  show FloatOps.dotGeneral D prec .single l r (ix2 a b) = _
  rw [Ideal.dotGeneral_apply]
  exact sum_plain D hlc hrc hln hrn hlb hrb l r a b

end Cert.LibDot

end
-- ==== Proof.KernelPay.lean ====
/-
  The body's two stored values, read at an index of the block, are the specification's row functions of the
  blocks the body loads.

  The first store's value at (p, q) of the 2000 × 128 block: two products into zero accumulators — the input block
  against the 1536 × 384 gate weights and the previous-memory block against the 128 × 384 ones —, each plus its bias
  row broadcast down the block, cut into three 128-column slices each; the logistic function of the first and the
  second pair's sums, the hyperbolic tangent of the third pair combined through the reset gate, and the update
  (1 − z)·n + z·prev. The second store's value at (p, c) of the 2000 × 2 block: the input block against the 1536 × 2
  classifier part plus the updated block against the 128 × 2 part, plus the bias row. A change of float format is the
  identity on the extended reals, and a shape cast to the same shape is the identity.
-/
import proofs.«417685_j83846351552519_2_alg».proof.Proof.Gen.KernelIdeal.Skeleton
import proofs.«417685_j83846351552519_2_alg».proof.Proof.Spec
import proofs.«417685_j83846351552519_2_alg».proof.Proof.LibDot
import Idealize.ShloMosaic.Lib.ValueLayout
import Idealize.ShloMosaic.Lib.ValueIdx
import Idealize.ShloMosaic.Lib.Pipeline.Value

noncomputable section

namespace Cert.KernelIdeal.KPay

open Cert.KernelIdeal Cert.KernelIdeal.Gen Idealize.ShloMosaic Idealize.ShloMosaic.ValueIdx

/-- The logistic function lane by lane. -/
theorem logistic_apply {s : Shape} {φ : FTy} (a : FVec Ideal s φ) (i : s.Idx) : logistic a i = Ideal.logistic (a i) := rfl
/-- The hyperbolic tangent lane by lane. -/
theorem tanh_apply {s : Shape} {φ : FTy} (a : FVec Ideal s φ) (i : s.Idx) : tanh a i = Ideal.tanh (a i) := rfl

/-- The first store's value at (p, q). -/
theorem newmem_pay (x0 : Vec Ideal S2000x1536 .f32) (x1 : Vec Ideal S2000x128 .f32) (w : Vec Ideal S1536x384 .bf16)
    (b : Vec Ideal S1x384 .f32) (wh : Vec Ideal S128x384 .f32) (bh : Vec Ideal S1x384 .f32) (p : Fin 2000) (q : Fin 128) :
    k0_pay3 (F := Ideal) x0 x1 w b wh bh (ix2 p q) = Cert.Spec.newMem x0 x1 w wh b bh p q := by
  unfold k0_pay3 k0_pay2
  simp only [addf_apply, mulf_apply, subf_apply, broadcast_apply, logistic_apply, tanh_apply, slice2_axis1_eq,
    shapeCast_self]
  simp only [Cert.LibDot.matmul_plain_apply dot_S2000x1536_S1536x384_S2000x384_1_0_0_1_n_n rfl rfl rfl rfl rfl rfl,
    Cert.LibDot.matmul_plain_apply dot_S2000x128_S128x384_S2000x384_1_0_0_1_n_n rfl rfl rfl rfl rfl rfl,
    broadcastTo_1b_ab_apply, truncf_apply]
  rfl

/-- The second store's value at (p, c), from the input block `x0`, the updated block `nm`, the two classifier parts
    and the bias row. -/
theorem logits_pay (x0 : Vec Ideal S2000x1536 .f32) (nm : FVec Ideal S2000x128 .f32) (ce : Vec Ideal S1536x2 .bf16)
    (cm : Vec Ideal S128x2 .f32) (cb : Vec Ideal S1x2 .f32) (p : Fin 2000) (c : Fin 2) :
    k0_pay1 (F := Ideal) (k0_pay2 x0) nm (k0_pay4 ce) cm cb (ix2 p c) = Cert.Spec.logits x0 nm ce cm cb p c := by
  unfold k0_pay1 k0_pay2 k0_pay4
  simp only [addf_apply, shapeCast_self]
  simp only [Cert.LibDot.matmul_plain_apply dot_S2000x1536_S1536x2_S2000x2_1_0_0_1_n_n rfl rfl rfl rfl rfl rfl,
    Cert.LibDot.matmul_plain_apply dot_S2000x128_S128x2_S2000x2_1_0_0_1_n_n rfl rfl rfl rfl rfl rfl,
    broadcastTo_1b_ab_apply, truncf_apply]
  rfl

end Cert.KernelIdeal.KPay

end
-- ==== Proof.KernelArr.lean ====
/-
  What the region leaves in its two output arrays, and what the scatter after it returns.

  The grid has 50 points; point t stages rows 2000·t … 2000·t + 1999 of the inputs and of the gathered memory rows,
  and the whole of each weight, bias and classifier array, and writes back rows 2000·t … of the updated rows and of
  the logits. The weight arrays the region finds are the host's transposes (and slices) of the arguments, the bias
  rows its reshapes. Every row of either output lies in exactly the block of the point ⌊row / 2000⌋, and what that
  point writes there is the specification's function of the row: so each output array ends as the specification's
  array. The lines after the region scatter the updated rows into the memory at the wrapped node ids.
-/
import proofs.«417685_j83846351552519_2_alg».proof.Proof.Gen.KernelIdeal.Frame
import proofs.«417685_j83846351552519_2_alg».proof.Proof.KernelPay
import Idealize.ShloMosaic.Lib.StableHlo.Run

set_option maxRecDepth 16384

noncomputable section

namespace Cert.KernelIdeal.KArr

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

theorem hz : (![0, 0] : Fin 2 → Nat) = fun _ => 0 := funext fun a => by fin_cases a <;> rfl

theorem hN : cfg0.N = 50 := N_0

/-- Row `p` of point `t`'s block is row `2000·t + p` of the array. -/
def row (t : Fin cfg0.N) (p : Fin 2000) : Fin 100000 :=
  ⟨t.val * 2000 + p.val, by have h1 : t.val < 50 := lt_of_lt_of_eq t.isLt hN; have h2 := p.isLt; omega⟩

/-! ## The printed index maps, decided over the grid -/

theorem idx_move : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_9.index t (0 : Fin 2) = t.val ∧ win0_9.index t (1 : Fin 2) = 0)
    ∧ (win0_10.index t (0 : Fin 2) = t.val ∧ win0_10.index t (1 : Fin 2) = 0) :=
  (by decide +kernel : ∀ t : Fin grid0.N, _)

theorem idx_fixed : ∀ t : Fin cfg0.N,
    (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

/-! ## Where a block's index lands in its array -/

theorem emb0 (t : Fin cfg0.N) (p : Fin 2000) (k : Fin 1536) :
    ((cfg0.win 0).blk t).view.emb (ix2 p k) = (ix2 (row t p) k : S100000x1536.Idx) := by
  obtain ⟨⟨e0, e1⟩, -⟩ := idx_move t
  funext a; apply Fin.ext
  match a with
  | ⟨0, _⟩ => show win0_0.index t (0 : Fin 2) * 2000 + 1 * p.val = t.val * 2000 + p.val; omega
  | ⟨1, _⟩ => show win0_0.index t (1 : Fin 2) * 1536 + 1 * k.val = k.val; omega

theorem emb1 (t : Fin cfg0.N) (p : Fin 2000) (k : Fin 128) :
    ((cfg0.win 1).blk t).view.emb (ix2 p k) = (ix2 (row t p) k : S100000x128.Idx) := by
  obtain ⟨-, ⟨e0, e1⟩, -⟩ := idx_move t
  funext a; apply Fin.ext
  match a with
  | ⟨0, _⟩ => show win0_1.index t (0 : Fin 2) * 2000 + 1 * p.val = t.val * 2000 + p.val; omega
  | ⟨1, _⟩ => show win0_1.index t (1 : Fin 2) * 128 + 1 * k.val = k.val; omega

theorem emb9 (t : Fin cfg0.N) (p : Fin 2000) (k : Fin 128) :
    ((cfg0.win 9).blk t).view.emb (ix2 p k) = (ix2 (row t p) k : S100000x128.Idx) := by
  obtain ⟨-, -, ⟨e0, e1⟩, -⟩ := idx_move t
  funext a; apply Fin.ext
  match a with
  | ⟨0, _⟩ => show win0_9.index t (0 : Fin 2) * 2000 + 1 * p.val = t.val * 2000 + p.val; omega
  | ⟨1, _⟩ => show win0_9.index t (1 : Fin 2) * 128 + 1 * k.val = k.val; omega

theorem emb10 (t : Fin cfg0.N) (p : Fin 2000) (k : Fin 2) :
    ((cfg0.win 10).blk t).view.emb (ix2 p k) = (ix2 (row t p) k : S100000x2.Idx) := by
  obtain ⟨-, -, -, ⟨e0, e1⟩⟩ := idx_move t
  funext a; apply Fin.ext
  match a with
  | ⟨0, _⟩ => show win0_10.index t (0 : Fin 2) * 2000 + 1 * p.val = t.val * 2000 + p.val; omega
  | ⟨1, _⟩ => show win0_10.index t (1 : Fin 2) * 2 + 1 * k.val = k.val; omega

theorem emb2 (t : Fin cfg0.N) (y : S1536x384.Idx) : ((cfg0.win 2).blk t).view.emb y = y := by
  obtain ⟨⟨e0, e1⟩, -⟩ := idx_fixed t
  funext a; apply Fin.ext
  match a with
  | ⟨0, _⟩ => show win0_2.index t (0 : Fin 2) * 1536 + 1 * (y 0).val = (y 0).val; omega
  | ⟨1, _⟩ => show win0_2.index t (1 : Fin 2) * 384 + 1 * (y 1).val = (y 1).val; omega

theorem emb3 (t : Fin cfg0.N) (y : S128x384.Idx) : ((cfg0.win 3).blk t).view.emb y = y := by
  obtain ⟨-, ⟨e0, e1⟩, -⟩ := idx_fixed t
  funext a; apply Fin.ext
  match a with
  | ⟨0, _⟩ => show win0_3.index t (0 : Fin 2) * 128 + 1 * (y 0).val = (y 0).val; omega
  | ⟨1, _⟩ => show win0_3.index t (1 : Fin 2) * 384 + 1 * (y 1).val = (y 1).val; omega

theorem emb4 (t : Fin cfg0.N) (y : S1x384.Idx) : ((cfg0.win 4).blk t).view.emb y = y := by
  obtain ⟨-, -, ⟨e0, e1⟩, -⟩ := idx_fixed t
  funext a; apply Fin.ext
  match a with
  | ⟨0, _⟩ => show win0_4.index t (0 : Fin 2) * 1 + 1 * (y 0).val = (y 0).val; omega
  | ⟨1, _⟩ => show win0_4.index t (1 : Fin 2) * 384 + 1 * (y 1).val = (y 1).val; omega

theorem emb5 (t : Fin cfg0.N) (y : S1x384.Idx) : ((cfg0.win 5).blk t).view.emb y = y := by
  obtain ⟨-, -, -, ⟨e0, e1⟩, -⟩ := idx_fixed t
  funext a; apply Fin.ext
  match a with
  | ⟨0, _⟩ => show win0_5.index t (0 : Fin 2) * 1 + 1 * (y 0).val = (y 0).val; omega
  | ⟨1, _⟩ => show win0_5.index t (1 : Fin 2) * 384 + 1 * (y 1).val = (y 1).val; omega

theorem emb6 (t : Fin cfg0.N) (y : S1536x2.Idx) : ((cfg0.win 6).blk t).view.emb y = y := by
  obtain ⟨-, -, -, -, ⟨e0, e1⟩, -⟩ := idx_fixed t
  funext a; apply Fin.ext
  match a with
  | ⟨0, _⟩ => show win0_6.index t (0 : Fin 2) * 1536 + 1 * (y 0).val = (y 0).val; omega
  | ⟨1, _⟩ => show win0_6.index t (1 : Fin 2) * 2 + 1 * (y 1).val = (y 1).val; omega

theorem emb7 (t : Fin cfg0.N) (y : S128x2.Idx) : ((cfg0.win 7).blk t).view.emb y = y := by
  obtain ⟨-, -, -, -, -, ⟨e0, e1⟩, -⟩ := idx_fixed t
  funext a; apply Fin.ext
  match a with
  | ⟨0, _⟩ => show win0_7.index t (0 : Fin 2) * 128 + 1 * (y 0).val = (y 0).val; omega
  | ⟨1, _⟩ => show win0_7.index t (1 : Fin 2) * 2 + 1 * (y 1).val = (y 1).val; omega

theorem emb8 (t : Fin cfg0.N) (y : S1x2.Idx) : ((cfg0.win 8).blk t).view.emb y = y := by
  obtain ⟨-, -, -, -, -, -, ⟨e0, e1⟩⟩ := idx_fixed t
  funext a; apply Fin.ext
  match a with
  | ⟨0, _⟩ => show win0_8.index t (0 : Fin 2) * 1 + 1 * (y 0).val = (y 0).val; omega
  | ⟨1, _⟩ => show win0_8.index t (1 : Fin 2) * 2 + 1 * (y 1).val = (y 1).val; omega

/-! ## The arrays the host wrote before the region -/

/-- The transposed input-gate weights (the change of float format is the identity). -/
theorem V_wih (c : Dev nD) : (V m c main_v1 : S1536x384.Idx → EReal)
    = truncf (F := Ideal) .bf16 (transpose S1536x384 [1, 0] (m ((c.tc : Thread nD τ).loc main_arg3)) transposes_S384x1536_S1536x384_1_0) bitsLt_bf16_f32 := by
  dsimp only [Gen.V, Gen.V0]
  simp only [Gen.hostOps0, Gen.hostOps0_1, List.flatten_cons, List.flatten_nil, List.append_nil, List.cons_append, List.nil_append]
  after_results <;> rfl

/-- The transposed memory-gate weights. -/
theorem V_whh (c : Dev nD) : (V m c main_v2 : S128x384.Idx → EReal)
    = transpose S128x384 [1, 0] (m ((c.tc : Thread nD τ).loc main_arg4)) transposes_S384x128_S128x384_1_0 := by
  dsimp only [Gen.V, Gen.V0]
  simp only [Gen.hostOps0, Gen.hostOps0_1, List.flatten_cons, List.flatten_nil, List.append_nil, List.cons_append, List.nil_append]
  after_results <;> rfl

/-- The input-gate bias as a row. -/
theorem V_bih (c : Dev nD) : (V m c main_v8 : S1x384.Idx → EReal)
    = shapeCast S1x384 (m ((c.tc : Thread nD τ).loc main_arg5)) shapeCasts_S384_S1x384 := by
  dsimp only [Gen.V, Gen.V0]
  simp only [Gen.hostOps0, Gen.hostOps0_1, List.flatten_cons, List.flatten_nil, List.append_nil, List.cons_append, List.nil_append]
  after_results <;> rfl

/-- The memory-gate bias as a row. -/
theorem V_bhh (c : Dev nD) : (V m c main_v9 : S1x384.Idx → EReal)
    = shapeCast S1x384 (m ((c.tc : Thread nD τ).loc main_arg6)) shapeCasts_S384_S1x384 := by
  dsimp only [Gen.V, Gen.V0]
  simp only [Gen.hostOps0, Gen.hostOps0_1, List.flatten_cons, List.flatten_nil, List.append_nil, List.cons_append, List.nil_append]
  after_results <;> rfl

/-- The classifier's weights on the inputs, transposed. -/
theorem V_ce (c : Dev nD) : (V m c main_v5 : S1536x2.Idx → EReal)
    = truncf (F := Ideal) .bf16 (transpose S1536x2 [1, 0] (extractStridedSlice S2x1536 ![0, 0] (m ((c.tc : Thread nD τ).loc main_arg7)) slices_S2x1664_S2x1536_0_0) transposes_S2x1536_S1536x2_1_0) bitsLt_bf16_f32 := by
  dsimp only [Gen.V, Gen.V0]
  simp only [Gen.hostOps0, Gen.hostOps0_1, List.flatten_cons, List.flatten_nil, List.append_nil, List.cons_append, List.nil_append]
  after_results <;> rfl

/-- The classifier's weights on the updated memory row, transposed. -/
theorem V_cm (c : Dev nD) : (V m c main_v7 : S128x2.Idx → EReal)
    = transpose S128x2 [1, 0] (extractStridedSlice S2x128 ![0, 1536] (m ((c.tc : Thread nD τ).loc main_arg7)) slices_S2x1664_S2x128_0_1536) transposes_S2x128_S128x2_1_0 := by
  dsimp only [Gen.V, Gen.V0]
  simp only [Gen.hostOps0, Gen.hostOps0_1, List.flatten_cons, List.flatten_nil, List.append_nil, List.cons_append, List.nil_append]
  after_results <;> rfl

/-- The classifier's bias as a row. -/
theorem V_cb (c : Dev nD) : (V m c main_v10 : S1x2.Idx → EReal)
    = shapeCast S1x2 (m ((c.tc : Thread nD τ).loc main_arg8)) shapeCasts_S2_S1x2 := by
  dsimp only [Gen.V, Gen.V0]
  simp only [Gen.hostOps0, Gen.hostOps0_1, List.flatten_cons, List.flatten_nil, List.append_nil, List.cons_append, List.nil_append]
  after_results <;> rfl

/-! ## The same arrays as the specification's parameters -/

theorem wih_tr (W : Cert.Spec.Mat 384 1536) (h : S384x1536.Transposes [1, 0] S1536x384) (h' : FTy.bits .bf16 < FTy.bits .f32) :
    truncf (F := Ideal) .bf16 (transpose S1536x384 [1, 0] W h) h' = Cert.Spec.tr W := by
  funext j
  obtain ⟨k, j', rfl⟩ : ∃ (k : Fin 1536) (j' : Fin 384), j = ix2 k j' := ⟨j 0, j 1, eq_ix2 j⟩
  show transpose S1536x384 [1, 0] W h (ix2 k j') = W (ix2 j' k)
  exact transpose_ix2_apply W h k j'

theorem whh_tr (W : Cert.Spec.Mat 384 128) (h : S384x128.Transposes [1, 0] S128x384) :
    transpose S128x384 [1, 0] W h = Cert.Spec.tr W := by
  funext j
  obtain ⟨k, j', rfl⟩ : ∃ (k : Fin 128) (j' : Fin 384), j = ix2 k j' := ⟨j 0, j 1, eq_ix2 j⟩
  show transpose S128x384 [1, 0] W h (ix2 k j') = W (ix2 j' k)
  exact transpose_ix2_apply W h k j'

theorem bias_row (v : Cert.Spec.Vct 384) (h : S384.ShapeCasts S1x384) : shapeCast S1x384 v h = Cert.Spec.rowOf v := by
  funext j
  obtain ⟨u, i, rfl⟩ : ∃ (u : Fin 1) (i : Fin 384), j = ix2 u i := ⟨j 0, j 1, eq_ix2 j⟩
  show shapeCast S1x384 v h (ix2 u i) = v (ix1 i)
  exact shapeCast_a_1a_apply v h u i

theorem cb_row (v : Cert.Spec.Vct 2) (h : S2.ShapeCasts S1x2) : shapeCast S1x2 v h = Cert.Spec.rowOf v := by
  funext j
  obtain ⟨u, i, rfl⟩ : ∃ (u : Fin 1) (i : Fin 2), j = ix2 u i := ⟨j 0, j 1, eq_ix2 j⟩
  show shapeCast S1x2 v h (ix2 u i) = v (ix1 i)
  exact shapeCast_a_1a_apply v h u i

theorem ce_tr (Cw : Cert.Spec.Mat 2 1664) (hs : S2x1664.Slices ![0, 0] S2x1536) (ht : S2x1536.Transposes [1, 0] S1536x2)
    (h' : FTy.bits .bf16 < FTy.bits .f32) :
    truncf (F := Ideal) .bf16 (transpose S1536x2 [1, 0] (extractStridedSlice S2x1536 ![0, 0] Cw hs) ht) h' = Cert.Spec.ceT Cw := by
  funext j
  obtain ⟨k, c', rfl⟩ : ∃ (k : Fin 1536) (c' : Fin 2), j = ix2 k c' := ⟨j 0, j 1, eq_ix2 j⟩
  show transpose S1536x2 [1, 0] (extractStridedSlice S2x1536 ![0, 0] Cw hs) ht (ix2 k c') = Cw (ix2 c' (Cert.Spec.colE k))
  rw [transpose_ix2_apply]
  exact slice2_axis1_apply 0 Cw hs c' k (Cert.Spec.colE k) (Nat.zero_add _).symm

theorem cm_tr (Cw : Cert.Spec.Mat 2 1664) (hs : S2x1664.Slices ![0, 1536] S2x128) (ht : S2x128.Transposes [1, 0] S128x2) :
    transpose S128x2 [1, 0] (extractStridedSlice S2x128 ![0, 1536] Cw hs) ht = Cert.Spec.cmT Cw := by
  funext j
  obtain ⟨k, c', rfl⟩ : ∃ (k : Fin 128) (c' : Fin 2), j = ix2 k c' := ⟨j 0, j 1, eq_ix2 j⟩
  show transpose S128x2 [1, 0] (extractStridedSlice S2x128 ![0, 1536] Cw hs) ht (ix2 k c') = Cw (ix2 c' (Cert.Spec.colM k))
  rw [transpose_ix2_apply]
  exact slice2_axis1_apply 1536 Cw hs c' k (Cert.Spec.colM k) rfl

/-! ## The blocks the body loads -/

theorem blk0 (c : Dev nD) (t : Fin cfg0.N) (p : Fin 2000) (k : Fin 1536) :
    iblk m c 0 t (ix2 p k) = m ((c.tc : Thread nD τ).loc main_arg0) (ix2 (row t p) k) := by
  show V m c main_arg0 (((cfg0.win 0).blk t).view.emb (ix2 p k)) = _
  rw [emb0, V_main_arg0]

theorem blk1 (c : Dev nD) (t : Fin cfg0.N) (p : Fin 2000) (k : Fin 128) :
    iblk m c 1 t (ix2 p k) = (V m c main_v14 : S100000x128.Idx → EReal) (ix2 (row t p) k) := by
  show V m c main_v14 (((cfg0.win 1).blk t).view.emb (ix2 p k)) = _
  rw [emb1]

theorem blk2 (c : Dev nD) (t : Fin cfg0.N) :
    (iblk m c 2 t : S1536x384.Idx → EReal) = Cert.Spec.tr (m ((c.tc : Thread nD τ).loc main_arg3)) := by
  funext y
  show V m c main_v1 (((cfg0.win 2).blk t).view.emb y) = _
  rw [emb2, V_wih, wih_tr]

theorem blk3 (c : Dev nD) (t : Fin cfg0.N) :
    (iblk m c 3 t : S128x384.Idx → EReal) = Cert.Spec.tr (m ((c.tc : Thread nD τ).loc main_arg4)) := by
  funext y
  show V m c main_v2 (((cfg0.win 3).blk t).view.emb y) = _
  rw [emb3, V_whh, whh_tr]

theorem blk4 (c : Dev nD) (t : Fin cfg0.N) :
    (iblk m c 4 t : S1x384.Idx → EReal) = Cert.Spec.rowOf (m ((c.tc : Thread nD τ).loc main_arg5)) := by
  funext y
  show V m c main_v8 (((cfg0.win 4).blk t).view.emb y) = _
  rw [emb4, V_bih, bias_row]

theorem blk5 (c : Dev nD) (t : Fin cfg0.N) :
    (iblk m c 5 t : S1x384.Idx → EReal) = Cert.Spec.rowOf (m ((c.tc : Thread nD τ).loc main_arg6)) := by
  funext y
  show V m c main_v9 (((cfg0.win 5).blk t).view.emb y) = _
  rw [emb5, V_bhh, bias_row]

theorem blk6 (c : Dev nD) (t : Fin cfg0.N) :
    (iblk m c 6 t : S1536x2.Idx → EReal) = Cert.Spec.ceT (m ((c.tc : Thread nD τ).loc main_arg7)) := by
  funext y
  show V m c main_v5 (((cfg0.win 6).blk t).view.emb y) = _
  rw [emb6, V_ce, ce_tr]

theorem blk7 (c : Dev nD) (t : Fin cfg0.N) :
    (iblk m c 7 t : S128x2.Idx → EReal) = Cert.Spec.cmT (m ((c.tc : Thread nD τ).loc main_arg7)) := by
  funext y
  show V m c main_v7 (((cfg0.win 7).blk t).view.emb y) = _
  rw [emb7, V_cm, cm_tr]

theorem blk8 (c : Dev nD) (t : Fin cfg0.N) :
    (iblk m c 8 t : S1x2.Idx → EReal) = Cert.Spec.rowOf (m ((c.tc : Thread nD τ).loc main_arg8)) := by
  funext y
  show V m c main_v10 (((cfg0.win 8).blk t).view.emb y) = _
  rw [emb8, V_cb, cb_row]

/-! ## What a point writes back -/

/-- The updated rows from the arrays the region finds, the gathered rows opaque. -/
abbrev NMk (c : Dev nD) : Cert.Spec.Mat 100000 128 :=
  Cert.Spec.NM (m ((c.tc : Thread nD τ).loc main_arg0)) (V m c main_v14 : S100000x128.Idx → EReal)
    (m ((c.tc : Thread nD τ).loc main_arg3)) (m ((c.tc : Thread nD τ).loc main_arg4))
    (m ((c.tc : Thread nD τ).loc main_arg5)) (m ((c.tc : Thread nD τ).loc main_arg6))

/-- The logits from the arrays the region finds, the gathered rows opaque. -/
abbrev LGk (c : Dev nD) : Cert.Spec.Mat 100000 2 :=
  Cert.Spec.LG (m ((c.tc : Thread nD τ).loc main_arg0)) (V m c main_v14 : S100000x128.Idx → EReal)
    (m ((c.tc : Thread nD τ).loc main_arg3)) (m ((c.tc : Thread nD τ).loc main_arg4))
    (m ((c.tc : Thread nD τ).loc main_arg5)) (m ((c.tc : Thread nD τ).loc main_arg6))
    (m ((c.tc : Thread nD τ).loc main_arg7)) (m ((c.tc : Thread nD τ).loc main_arg8))

/-- The first store's value at row `p` of point `t` is the specification's updated row `2000·t + p`. -/
theorem pay3_at (c : Dev nD) (t : Fin cfg0.N) (p : Fin 2000) (q : Fin 128) :
    k0_pay3 (F := Ideal) (iblk m c 0 t) (iblk m c 1 t) (iblk m c 2 t) (iblk m c 4 t) (iblk m c 3 t) (iblk m c 5 t) (ix2 p q)
      = NMk m c (ix2 (row t p) q) := by
  refine (Cert.KernelIdeal.KPay.newmem_pay (iblk m c 0 t) (iblk m c 1 t) (iblk m c 2 t) (iblk m c 4 t) (iblk m c 3 t) (iblk m c 5 t) p q).trans ?_
  rw [blk2, blk3, blk4, blk5]
  exact Cert.Spec.newMem_congr _ _ _ _ _ _ _ _ p (row t p) (fun k => blk0 m c t p k) (fun k => blk1 m c t p k) q

/-- WHAT POINT `t` WRITES BACK to the updated rows is block `t` of the specification's array. -/
theorem flushed9_eq (c : Dev nD) (t : Fin cfg0.N) :
    (dats m 0 c).flushed 9 t = ((cfg0.win 9).blk t).view.read (Elt Ideal) (NMk m c) := by
  show (cfg0.win 9).cut (grid0.coords t) ((dats m 0 c).after 9 t) = _
  rw [after0_9]
  unfold out0_9
  rw [View.canon_unit_zero hz]
  simp only [View.ld_unit_zero (S := S2000x1536) hz, View.ld_unit_zero (S := S2000x128) hz, View.ld_unit_zero (S := S1536x384) hz,
    View.ld_unit_zero (S := S1x384) hz, View.ld_unit_zero (S := S128x384) hz]
  funext j
  obtain ⟨p, q, rfl⟩ : ∃ (p : Fin 2000) (q : Fin 128), j = ix2 p q := ⟨j 0, j 1, eq_ix2 j⟩
  show k0_pay3 (F := Ideal) (iblk m c 0 t) (iblk m c 1 t) (iblk m c 2 t) (iblk m c 4 t) (iblk m c 3 t) (iblk m c 5 t) (ix2 p q)
    = NMk m c (((cfg0.win 9).blk t).view.emb (ix2 p q))
  rw [emb9]
  exact pay3_at m c t p q

/-- WHAT POINT `t` WRITES BACK to the logits is block `t` of the specification's array. -/
theorem flushed10_eq (c : Dev nD) (t : Fin cfg0.N) :
    (dats m 0 c).flushed 10 t = ((cfg0.win 10).blk t).view.read (Elt Ideal) (LGk m c) := by
  show (cfg0.win 10).cut (grid0.coords t) ((dats m 0 c).after 10 t) = _
  rw [after0_10]
  unfold out0_10
  rw [View.canon_unit_zero hz]
  simp only [View.ld_unit_zero (S := S2000x1536) hz, View.ld_unit_zero (S := S2000x128) hz, View.ld_unit_zero (S := S1536x384) hz,
    View.ld_unit_zero (S := S1x384) hz, View.ld_unit_zero (S := S128x384) hz, View.ld_unit_zero (S := S1536x2) hz,
    View.ld_unit_zero (S := S128x2) hz, View.ld_unit_zero (S := S1x2) hz]
  funext j
  obtain ⟨p, c', rfl⟩ : ∃ (p : Fin 2000) (c' : Fin 2), j = ix2 p c' := ⟨j 0, j 1, eq_ix2 j⟩
  show k0_pay1 (F := Ideal) (k0_pay2 (iblk m c 0 t))
      (k0_pay3 (iblk m c 0 t) (iblk m c 1 t) (iblk m c 2 t) (iblk m c 4 t) (iblk m c 3 t) (iblk m c 5 t))
      (k0_pay4 (iblk m c 6 t)) (iblk m c 7 t) (iblk m c 8 t) (ix2 p c')
    = LGk m c (((cfg0.win 10).blk t).view.emb (ix2 p c'))
  rw [emb10]
  refine (Cert.KernelIdeal.KPay.logits_pay (iblk m c 0 t)
    (k0_pay3 (iblk m c 0 t) (iblk m c 1 t) (iblk m c 2 t) (iblk m c 4 t) (iblk m c 3 t) (iblk m c 5 t))
    (iblk m c 6 t) (iblk m c 7 t) (iblk m c 8 t) p c').trans ?_
  rw [blk6, blk7, blk8]
  exact Cert.Spec.logits_congr _ _ _ _ _ _ _ p (row t p) (fun k => blk0 m c t p k) (fun k => pay3_at m c t p k) c'

/-! ## Every row is in the block of the point ⌊row / 2000⌋ -/

theorem mem_blk9 (t : Fin cfg0.N) (i : S100000x128.Idx) :
    i ∈ ((cfg0.win 9).blk t).view.set ↔ ∀ a : Fin 2, win0_9.index t a * S2000x128.size a ≤ (i a).val ∧ (i a).val < win0_9.index t a * S2000x128.size a + S2000x128.size a := by
  show i ∈ ((View.whole main_v15_0).slice (win0_9.rect t)).set ↔ _
  rw [View.set_slice_whole, Rect.mem_set_unit]
  exact Iff.rfl

theorem mem_blk10 (t : Fin cfg0.N) (i : S100000x2.Idx) :
    i ∈ ((cfg0.win 10).blk t).view.set ↔ ∀ a : Fin 2, win0_10.index t a * S2000x2.size a ≤ (i a).val ∧ (i a).val < win0_10.index t a * S2000x2.size a + S2000x2.size a := by
  show i ∈ ((View.whole main_v15_1).slice (win0_10.rect t)).set ↔ _
  rw [View.set_slice_whole, Rect.mem_set_unit]
  exact Iff.rfl

theorem cover9 (i : S100000x128.Idx) : ∃ t : Fin cfg0.N, (cfg0.win 9).flush t = true ∧ i ∈ ((cfg0.win 9).blk t).view.set := by
  have hi0 : (i 0).val < 100000 := (i 0).isLt
  have hi1 : (i 1).val < 128 := (i 1).isLt
  let t : Fin cfg0.N := ⟨(i 0).val / 2000, by rw [hN]; omega⟩
  have ht : t.val = (i 0).val / 2000 := rfl
  obtain ⟨-, -, ⟨e0, e1⟩, -⟩ := idx_move t
  refine ⟨t, flush0_9 t, ?_⟩
  rw [mem_blk9]
  intro a
  match a with
  | ⟨0, _⟩ => show win0_9.index t (0 : Fin 2) * 2000 ≤ (i 0).val ∧ (i 0).val < win0_9.index t (0 : Fin 2) * 2000 + 2000; omega
  | ⟨1, _⟩ => show win0_9.index t (1 : Fin 2) * 128 ≤ (i 1).val ∧ (i 1).val < win0_9.index t (1 : Fin 2) * 128 + 128; omega

theorem cover10 (i : S100000x2.Idx) : ∃ t : Fin cfg0.N, (cfg0.win 10).flush t = true ∧ i ∈ ((cfg0.win 10).blk t).view.set := by
  have hi0 : (i 0).val < 100000 := (i 0).isLt
  have hi1 : (i 1).val < 2 := (i 1).isLt
  let t : Fin cfg0.N := ⟨(i 0).val / 2000, by rw [hN]; omega⟩
  have ht : t.val = (i 0).val / 2000 := rfl
  obtain ⟨-, -, -, ⟨e0, e1⟩⟩ := idx_move t
  refine ⟨t, flush0_10 t, ?_⟩
  rw [mem_blk10]
  intro a
  match a with
  | ⟨0, _⟩ => show win0_10.index t (0 : Fin 2) * 2000 ≤ (i 0).val ∧ (i 0).val < win0_10.index t (0 : Fin 2) * 2000 + 2000; omega
  | ⟨1, _⟩ => show win0_10.index t (1 : Fin 2) * 2 ≤ (i 1).val ∧ (i 1).val < win0_10.index t (1 : Fin 2) * 2 + 2; omega

/-! ## The two arrays after the region -/

theorem final9 (c : Dev nD) : (dats m 0 c).arrAt 9 cfg0.N = NMk m c :=
  (dats m 0 c).arrAt_eq_of_cover 9 (NMk m c) (fun t _ => flushed9_eq m c t) cover9

theorem final10 (c : Dev nD) : (dats m 0 c).arrAt 10 cfg0.N = LGk m c :=
  (dats m 0 c).arrAt_eq_of_cover 10 (LGk m c) (fun t _ => flushed10_eq m c t) cover10

/-! ## The scatter after the region -/

/-- The scatter's start indices: the node ids, a negative one wrapped by 250000, as a column. -/
abbrev wrapK (x1 : IVec S100000 32) : IVec S100000x1 32 :=
  broadcastInDim S100000x1 ![0] bcast_S100000_S100000x1_0
    (select (cmpi .slt x1 (broadcastInDim S100000 ![] bcast_S_S100000 (constantI S_ 32 0#32)))
      (addi x1 (broadcastInDim S100000 ![] bcast_S_S100000 (constantI S_ 32 250000#32))) x1)

theorem tail_eq (c : Dev nD) :
    Pipeline.afterTail₀ cfgs (dats m) 0 (V0 m) [hostOps1] c main_v22
      = Host.scatter scatter_S250000x128_S100000x1_S100000x128_1_0_0_1 (fun _ b => b)
          (m ((c.tc : Thread nD τ).loc main_arg2)) (wrapK (m ((c.tc : Thread nD τ).loc main_arg1))) (NMk m c) := by
  unfold Pipeline.afterTail₀
  show StableHlo.after hostOps1 _ (Proc.devRef .tc main_v22) = _
  after_results
  have h2 : Pipeline.withArrays (cfgs 0).spec c (V0 m c) (fun w => (dats m 0 c).arrAt w (cfgs 0).N) (Proc.devRef .tc main_arg2)
      = m ((c.tc : Thread nD τ).loc main_arg2) :=
    (Pipeline.withArrays_of_ne _ c (V0 m c) _ main_arg2 (by exact (by decide : ∀ w, Pipeline.arrRef spec0 w ≠ main_arg2))).trans (V_main_arg2 m c)
  have h1 : Pipeline.withArrays (cfgs 0).spec c (V0 m c) (fun w => (dats m 0 c).arrAt w (cfgs 0).N) (Proc.devRef .tc main_arg1)
      = m ((c.tc : Thread nD τ).loc main_arg1) :=
    (Pipeline.withArrays_of_ne _ c (V0 m c) _ main_arg1 (by exact (by decide : ∀ w, Pipeline.arrRef spec0 w ≠ main_arg1))).trans (V_main_arg1 m c)
  have h9 : Pipeline.withArrays (cfgs 0).spec c (V0 m c) (fun w => (dats m 0 c).arrAt w (cfgs 0).N) (Proc.devRef .tc main_v15_0)
      = NMk m c :=
    (Pipeline.withArrays_arr spec0 launch0.win.arr_inj c _ _ 9).trans (final9 m c)
  rw [h2, h1, h9]
  rfl

/-! ## The run, read -/

/-- Every weakly fair execution of the kernel program ends with the logits at the specification's array, the memory
    result at the scatter of the specification's updated rows, and the arguments unchanged — the gathered rows still
    named by the array the region found. -/
theorem run (ρ : Dev nD → PrngReg) :
    θ_run defs (onTc (τ := τ) (main (F := Ideal))) ⟨m, fun _ => 0, ρ⟩ (fun r => ∀ c : Dev nD,
      r.2.mem ((c.tc : Thread nD τ).loc main_v15_1) = LGk m c
      ∧ r.2.mem ((c.tc : Thread nD τ).loc main_v22)
          = Host.scatter scatter_S250000x128_S100000x1_S100000x128_1_0_0_1 (fun _ b => b)
              (m ((c.tc : Thread nD τ).loc main_arg2)) (wrapK (m ((c.tc : Thread nD τ).loc main_arg1))) (NMk m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).1 10).trans (final10 m c),
      ((h c).2 main_v22 (Pipeline.mem_restRefs_of main_v22 (by decide) (by decide))).trans (tail_eq m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c))⟩)
    (run_main m ρ)

end Cert.KernelIdeal.KArr

end
-- ==== Proof.LibAllOnes.lean ====
/-
  Two readings a fill-mode `take` needs that the library states only one way round.

  * An `and`-reduction started at 1 over an array of `i1` words that are all 1 is 1 at every result index
    (`reduce_andi_of_all`): the converse of the library's reading of `jnp.all`, by the same fold.
  * A length-`m` vector laid along the second axis of an [n × m] rectangle in ONE broadcast (dimension map `[1]`)
    reads, at (p, q), the vector at `q` (`bcast_axis1`).
-/
import Idealize.ShloMosaic.Lib.ReduceAll
import Idealize.ShloMosaic.Lib.StableHlo.Predicate

noncomputable section

namespace Cert.LibAllOnes

open Idealize.ShloMosaic Idealize.ShloMosaic.StableHlo.Predicate

/-- A left fold by `and` from 1 over 1s is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    have ha : f a = 1#1 := h a (List.mem_cons_self ..)
    have h11 : IntOp.andi 1#1 1#1 = 1#1 := by decide
    rw [List.foldl_cons, ha, h11]
    exact foldl_andi_one f l (fun n hn => h n (List.mem_cons_of_mem _ hn))

/-- An `and`-reduction from 1 of an array whose every element is 1 is 1 at every result index. -/
theorem reduce_andi_of_all {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  exact foldl_andi_one x _ (fun i _ => hx i)

/-- A vector laid along the second axis of an [n × m] rectangle by one broadcast reads, at (p, q), the vector at `q`. -/
theorem bcast_axis1 {α : Type} {n m : Nat} (h : (⟨1, ![m]⟩ : Shape).BroadcastsInDim ⟨2, ![n, m]⟩ ![1])
    (v : (⟨1, ![m]⟩ : Shape).Idx → α) (p : Fin n) (q : Fin m) :
    broadcastInDim ⟨2, ![n, m]⟩ ![1] h v (ij p q) = v (Shape.Idx.ofFin q) := by
  simp only [broadcastInDim]
  congr 1
  funext a
  have ha : a = 0 := Subsingleton.elim _ _
  subst ha
  apply Fin.ext
  have hq := q.isLt
  split
  · next h1 => change m = 1 at h1; show (0 : Nat) = q.val; omega
  · rfl

end Cert.LibAllOnes

end
-- ==== Proof.PreMask.lean ====
/-
  Under the precondition the kernel program's gathered rows are the plain gather.

  The kernel program takes the rows of the memory at the node ids through a `take` that fills with a
  not-a-number pattern wherever the wrapped id falls outside [0, 249999]: it computes the wrapped id
  (id + 250000 where id < 0), the two comparisons 0 ≤ id' and id' ≤ 249999, their conjunction reduced over the
  unit axis, broadcasts that mask over the 128 lanes and selects between the gathered row and the fill.
  The precondition says every node id lies in [-250000, 250000); then every wrapped id lies in [0, 249999], the
  mask is one everywhere, and the select returns the gathered rows.
-/
import proofs.«417685_j83846351552519_2_alg».proof.Defs
import proofs.«417685_j83846351552519_2_alg».proof.Proof.Gen.KernelIdeal.Frame
import proofs.«417685_j83846351552519_2_alg».proof.Proof.Gen.Pre_finite_inputs
import proofs.«417685_j83846351552519_2_alg».proof.Proof.LibAllOnes
import Idealize.ShloMosaic.Lib.ReduceAll
import Idealize.ShloMosaic.Lib.ValueIdx
import Idealize.ShloMosaic.Lib.StableHlo.Predicate
import Idealize.ShloMosaic.Lib.StableHlo.Run

noncomputable section

namespace Cert.KernelIdeal.PreMask

open Cert.KernelIdeal Cert.KernelIdeal.Gen Idealize.ShloMosaic Idealize.ShloMosaic.TcCoe Idealize.SL.Sem

/-- The gather's start indices: the node ids, a negative one wrapped by 250000, as a column. -/
def wrapIdx (x1 : IVec S100000 32) : IVec S100000x1 32 :=
  broadcastInDim S100000x1 ![0] bcast_S100000_S100000x1_0
    (select (cmpi .slt x1 (broadcastInDim S100000 ![] bcast_S_S100000 (constantI S_ 32 0#32)))
      (addi x1 (broadcastInDim S100000 ![] bcast_S_S100000 (constantI S_ 32 250000#32))) x1)

/-- A node id in [-250000, 250000), wrapped by 250000 where negative, lies in [0, 249999]: both comparisons
    the take's mask makes come out one. -/
theorem wrap_range (w : BitVec 32) (hge : IntOp.cmpi .sge w 4294717296#32 = 1#1) (hlt : IntOp.cmpi .slt w 250000#32 = 1#1) :
    IntOp.cmpi .sge (Scalar.select (IntOp.cmpi .slt w 0#32) (IntOp.addi w 250000#32) w) 0#32 = 1#1
    ∧ IntOp.cmpi .sle (Scalar.select (IntOp.cmpi .slt w 0#32) (IntOp.addi w 250000#32) w) 249999#32 = 1#1 := by
  have e1 : (4294717296#32 : BitVec 32).toInt = -250000 := by decide
  have e2 : (250000#32 : BitVec 32).toInt = 250000 := by decide
  have e3 : (0#32 : BitVec 32).toInt = 0 := by decide
  have e4 : (249999#32 : BitVec 32).toInt = 249999 := by decide
  by_cases h : IntOp.cmpi .slt w 0#32 = 1#1
  · have hs : Scalar.select (IntOp.cmpi .slt w 0#32) (IntOp.addi w 250000#32) w = w + 250000#32 := if_pos h
    rw [hs]
    simp only [IntOp.cmpi, StableHlo.Predicate.ofBool_eq_one_iff, BitVec.slt, BitVec.sle, decide_eq_true_eq] at hge hlt h ⊢
    rw [BitVec.toInt_add]
    rw [e1] at hge; rw [e2] at hlt ⊢; rw [e3] at h ⊢; rw [e4]
    have : (w.toInt + 250000).bmod (2^32) = w.toInt + 250000 := by
      apply Int.bmod_eq_of_le <;> omega
    rw [this]; omega
  · have hs : Scalar.select (IntOp.cmpi .slt w 0#32) (IntOp.addi w 250000#32) w = w := if_neg h
    rw [hs]
    simp only [IntOp.cmpi, StableHlo.Predicate.ofBool_eq_one_iff, BitVec.slt, BitVec.sle, decide_eq_true_eq] at hge hlt h ⊢
    rw [e2] at hlt; rw [e3] at h ⊢; rw [e4]
    omega

/-- A select under a mask that is one everywhere is its first branch. -/
theorem select_of_all_ones {s : Shape} {α : Type} (c : IVec s 1) (a b : s.Idx → α) (hc : ∀ i, c i = 1#1) :
    select c a b = a := by
  funext i
  rw [ValueIdx.select_apply, hc i, ValueIdx.select_one]

/-- A broadcast of an array that holds one value everywhere holds that value everywhere. -/
theorem bcast_of_all {α : Type} {s t : Shape} (dims : Fin s.rank → Fin t.rank) (h : s.BroadcastsInDim t dims)
    (x : s.Idx → α) (v : α) (hx : ∀ k, x k = v) (j : t.Idx) : broadcastInDim t dims h x j = v := by
  unfold broadcastInDim
  exact hx _

/-- The take with the not-a-number fill, over node ids in [-250000, 250000): the mask is one everywhere and the
    select returns the gathered rows. -/
theorem take_eq (x1 : IVec S100000 32) (x2 : S250000x128.Idx → EReal)
    (hge : ∀ k, IntOp.cmpi .sge (x1 k) 4294717296#32 = 1#1) (hlt : ∀ k, IntOp.cmpi .slt (x1 k) 250000#32 = 1#1) :
    select (broadcastInDim S100000x128 ![0] bcast_S100000_S100000x128_0
        (Host.reduce IntOp.andi
          (andi (cmpi .sge (wrapIdx x1) (broadcastInDim S100000x1 ![] bcast_S_S100000x1 (constantI S_ 32 0#32)))
            (cmpi .sle (wrapIdx x1) (broadcastInDim S100000x1 ![0, 1] bcast_S1x1_S100000x1_0_1
              (broadcastInDim S1x1 ![1] bcast_S1_S1x1_1 (constantI S1 32 249999#32)))))
          (constantI S_ 1 1#1) reducesTo_S100000x1_S100000_d1 h_S_))
      (Host.gather gather_S250000x128_S100000x1_S100000x128_1_0_n_n_0_1_1128 x2 (wrapIdx x1))
      (broadcastInDim S100000x128 ![] bcast_S_S100000x128 (constant (F := Ideal) S_ .f32 0x7FC00000#32))
    = Host.gather gather_S250000x128_S100000x1_S100000x128_1_0_n_n_0_1_1128 x2 (wrapIdx x1) := by
  have hw : ∀ i, IntOp.cmpi .sge (wrapIdx x1 i) 0#32 = 1#1 ∧ IntOp.cmpi .sle (wrapIdx x1 i) 249999#32 = 1#1 := by
    intro i
    exact wrap_range _ (hge _) (hlt _)
  generalize wrapIdx x1 = v5 at hw ⊢
  generalize Host.gather gather_S250000x128_S100000x1_S100000x128_1_0_n_n_0_1_1128 x2 v5 = g
  apply select_of_all_ones
  intro j
  apply bcast_of_all
  intro k
  apply Cert.LibAllOnes.reduce_andi_of_all
  · rfl
  · intro i
    exact IntOp.andi_eq_one.2 (hw i)

/-- The precondition read at one node id: as a signed word it is at least -250000 and below 250000. -/
theorem pre_range (m : (ℓ : Loc nD τ sig) → Buf (Elt Ideal) ℓ) (c : Dev nD) (hpre : Cert.Pre_KernelIdeal m)
    (k : S100000.Idx) :
    IntOp.cmpi .sge ((m ((c.tc : Thread nD τ).loc main_arg1) : IVec S100000 32) k) 4294717296#32 = 1#1
    ∧ IntOp.cmpi .slt ((m ((c.tc : Thread nD τ).loc main_arg1) : IVec S100000 32) k) 250000#32 = 1#1 := by
  haveI : Subsingleton Cert.Pre_finite_inputs.S_.Idx := ⟨fun a b => funext fun d => d.elim0⟩
  have h := congrFun (hpre c) ValueIdx.ix0
  unfold Cert.Pre_finite_inputs.fn Cert.Pre_finite_inputs.fn_part1 Cert.Pre_finite_inputs.fn_part2 at h
  dsimp only at h
  obtain ⟨h42, h45⟩ := IntOp.andi_eq_one.1 h
  obtain ⟨_, h41⟩ := IntOp.andi_eq_one.1 h42
  exact ⟨Host.reduce_andi_all _ _ _ _ _ h41 k, Host.reduce_andi_all _ _ _ _ _ h45 k⟩

/-- What the host operations before the region leave in the take's result: the select between the gathered rows and
    the fill under the broadcast mask, all of it a function of the launched node ids and memory. -/
theorem v14_eq (m : (ℓ : Loc nD τ sig) → Buf (Elt Ideal) ℓ) (c : Dev nD) :
    (Gen.V m c main_v14 : S100000x128.Idx → EReal)
      = select (broadcastInDim S100000x128 ![0] bcast_S100000_S100000x128_0
        (Host.reduce IntOp.andi
          (andi (cmpi .sge (wrapIdx (m ((c.tc : Thread nD τ).loc main_arg1))) (broadcastInDim S100000x1 ![] bcast_S_S100000x1 (constantI S_ 32 0#32)))
            (cmpi .sle (wrapIdx (m ((c.tc : Thread nD τ).loc main_arg1))) (broadcastInDim S100000x1 ![0, 1] bcast_S1x1_S100000x1_0_1
              (broadcastInDim S1x1 ![1] bcast_S1_S1x1_1 (constantI S1 32 249999#32)))))
          (constantI S_ 1 1#1) reducesTo_S100000x1_S100000_d1 h_S_))
      (Host.gather gather_S250000x128_S100000x1_S100000x128_1_0_n_n_0_1_1128 (m ((c.tc : Thread nD τ).loc main_arg2)) (wrapIdx (m ((c.tc : Thread nD τ).loc main_arg1))))
      (broadcastInDim S100000x128 ![] bcast_S_S100000x128 (constant (F := Ideal) S_ .f32 0x7FC00000#32)) := by
  dsimp only [Gen.V, Gen.V0]
  simp only [Gen.hostOps0, Gen.hostOps0_1, List.flatten_cons, List.flatten_nil, List.append_nil, List.cons_append,
    List.nil_append]
  after_results_simp
  simp only [StableHlo.TRef.ofBuf, StableHlo.TRef.toBuf, cast_eq]
  rfl

/-- Under the precondition, the array the region's second window stages is the gather of the memory's rows at the
    wrapped node ids: the fill never shows. -/
theorem prev_eq (m : (ℓ : Loc nD τ sig) → Buf (Elt Ideal) ℓ) (c : Dev nD) (hpre : Cert.Pre_KernelIdeal m) :
    (Gen.V m c main_v14 : S100000x128.Idx → EReal)
      = Host.gather gather_S250000x128_S100000x1_S100000x128_1_0_n_n_0_1_1128
          (m ((c.tc : Thread nD τ).loc main_arg2)) (wrapIdx (m ((c.tc : Thread nD τ).loc main_arg1))) := by
  exact (v14_eq m c).trans
    (take_eq _ _ (fun k => (pre_range m c hpre k).1) (fun k => (pre_range m c hpre k).2))

end Cert.KernelIdeal.PreMask

end
-- ==== Proof.RefSpec.lean ====
/-
  The reference program's two results are the specification's functions of its arguments.

  Its run ends with the logits at the composed term of its operations: the gate products against the transposed
  weights plus the bias rows, the three 128-column slices of each, the logistic function spelled 1 / (1 + e^(−x)),
  the hyperbolic tangent, the update (1 − z)·n + z·prev, and the classifier's product of the concatenated row
  [inputs ; updated row] with the transposed classifier weights plus its bias. Read index by index this is
  `Spec.LG`: the product over the 1664 columns splits into the sums over the two parts. The memory result is the
  scatter of the updated rows `Spec.NM` at the wrapped node ids.
-/
import proofs.«417685_j83846351552519_2_alg».proof.Proof.Gen.ReferenceIdeal.Read
import proofs.«417685_j83846351552519_2_alg».proof.Proof.Spec
import proofs.«417685_j83846351552519_2_alg».proof.Proof.LibDot
import Idealize.ShloMosaic.Lib.ValueLayout
import Idealize.ShloMosaic.Lib.StableHlo.Predicate
import Idealize.ShloMosaic.PureOps.IdealRules

noncomputable section

namespace Cert.ReferenceIdeal.RefSpec

open Cert.ReferenceIdeal Cert.ReferenceIdeal.Gen Idealize.ShloMosaic Idealize.ShloMosaic.TcCoe Idealize.SL.Sem
open Idealize.ShloMosaic.ValueIdx

/-- The gather's and the scatter's start indices: the node ids, a negative one wrapped by 250000, as a column. -/
def wrapIdx (x1 : IVec S100000 32) : IVec S100000x1 32 :=
  broadcastInDim S100000x1 ![0] bcast_S100000_S100000x1_0
    (select (cmpi .slt x1 (broadcastInDim S100000 ![] bcast_S_S100000 (constantI S_ 32 0#32)))
      (addi x1 (broadcastInDim S100000 ![] bcast_S_S100000 (constantI S_ 32 250000#32))) x1)

/-- The previous memory rows: the memory gathered at the wrapped node ids. -/
def prev (x1 : IVec S100000 32) (x2 : FVec Ideal S250000x128 .f32) : FVec Ideal S100000x128 .f32 :=
  Host.gather gather_S250000x128_S100000x1_S100000x128_1_0_n_n_0_1_1128 x2 (wrapIdx x1)

/-! ## The stages of the reference read at an index -/

section Stages

open Cert.ReferenceIdeal.Read

variable (x0 : (⟨S100000x1536, .f32⟩ : BufTy).Contents (Elt Ideal)) (x1 : (⟨S100000, .i32⟩ : BufTy).Contents (Elt Ideal))
  (x2 : (⟨S250000x128, .f32⟩ : BufTy).Contents (Elt Ideal)) (x3 : (⟨S384x1536, .f32⟩ : BufTy).Contents (Elt Ideal))
  (x4 : (⟨S384x128, .f32⟩ : BufTy).Contents (Elt Ideal)) (x5 x6 : (⟨S384, .f32⟩ : BufTy).Contents (Elt Ideal))
  (x7 : (⟨S2x1664, .f32⟩ : BufTy).Contents (Elt Ideal)) (x8 : (⟨S2, .f32⟩ : BufTy).Contents (Elt Ideal))

/-- The gathered rows are `prev`: the start indices are the wrapped node ids. -/
theorem v6_eq : val_main_v6 (F := Ideal) x1 x2 = prev x1 x2 := rfl

/-- The scatter's start indices are the wrapped node ids too. -/
theorem v50_eq : val_main_v50 (F := Ideal) x1 = wrapIdx x1 := rfl

/-- The pattern of `1.0` is the extended real one. -/
theorem one_eq : (Spec.one : EReal) = 1 := IdealRules.sign_bit.ideal_onePat .f32

/-- `1 / (1 + e^(−x))`, with both ones spelled as patterns, is the logistic function. -/
theorem logistic_spelled (x : EReal) : Ideal.div Spec.one (Spec.one + Ideal.exp (-x)) = Ideal.logistic x := by
  unfold Ideal.logistic
  rw [one_eq]

/-- The input gates' product: row `i` of the inputs against column `j` of the transposed weights. -/
theorem v8_at (i : Fin 100000) (j : Fin 384) :
    val_main_v8 (F := Ideal) x0 x3 (ix2 i j) = ∑ k : Fin 1536, x0 (ix2 i k) * Spec.tr (a := 384) (b := 1536) x3 (ix2 k j) := by
  rw [val_main_v8_apply]
  refine Finset.sum_congr rfl fun k _ => ?_
  have e1 : lidx_main_v8 (ix2 i j) k = ix2 i k := funext fun a => Fin.ext (by match a with | ⟨0, _⟩ => rfl | ⟨1, _⟩ => rfl)
  have e2 : idx_main_v7 (ridx_main_v8 (ix2 i j) k) = ix2 j k := funext fun a => Fin.ext (by match a with | ⟨0, _⟩ => rfl | ⟨1, _⟩ => rfl)
  rw [val_main_v7_apply, e1, e2]
  rfl

/-- The input gates' pre-activation is the specification's `gate`. -/
theorem v11_at (i : Fin 100000) (j : Fin 384) :
    val_main_v11 (F := Ideal) x0 x3 x5 (ix2 i j)
      = Spec.gate (N := 100000) (K := 1536) x0 (Spec.tr (a := 384) (b := 1536) x3) (Spec.rowOf (a := 384) x5) i j := by
  have hB : val_main_v10 (F := Ideal) x5 (ix2 i j) = x5 (ix1 j) := by
    have e : idx_main_v9 (idx_main_v10 (ix2 i j)) = ix1 j := funext fun a => Fin.ext (by match a with | ⟨0, _⟩ => rfl)
    rw [val_main_v10_apply, val_main_v9_apply, e]
  rw [val_main_v11_apply, v8_at, hB]
  rfl

/-- The memory gates' product: row `i` of the gathered rows against column `j` of the transposed weights. -/
theorem v13_at (i : Fin 100000) (j : Fin 384) :
    val_main_v13 (F := Ideal) x1 x2 x4 (ix2 i j)
      = ∑ k : Fin 128, val_main_v6 (F := Ideal) x1 x2 (ix2 i k) * Spec.tr (a := 384) (b := 128) x4 (ix2 k j) := by
  rw [val_main_v13_apply]
  refine Finset.sum_congr rfl fun k _ => ?_
  have e1 : lidx_main_v13 (ix2 i j) k = ix2 i k := funext fun a => Fin.ext (by match a with | ⟨0, _⟩ => rfl | ⟨1, _⟩ => rfl)
  have e2 : idx_main_v12 (ridx_main_v13 (ix2 i j) k) = ix2 j k := funext fun a => Fin.ext (by match a with | ⟨0, _⟩ => rfl | ⟨1, _⟩ => rfl)
  rw [val_main_v12_apply, e1, e2]
  rfl

/-- The memory gates' pre-activation is the specification's `gate` of the gathered rows. -/
theorem v16_at (i : Fin 100000) (j : Fin 384) :
    val_main_v16 (F := Ideal) x1 x2 x4 x6 (ix2 i j)
      = Spec.gate (N := 100000) (K := 128) (val_main_v6 (F := Ideal) x1 x2) (Spec.tr (a := 384) (b := 128) x4)
          (Spec.rowOf (a := 384) x6) i j := by
  have hB : val_main_v15 (F := Ideal) x6 (ix2 i j) = x6 (ix1 j) := by
    have e : idx_main_v14 (idx_main_v15 (ix2 i j)) = ix1 j := funext fun a => Fin.ext (by match a with | ⟨0, _⟩ => rfl)
    rw [val_main_v15_apply, val_main_v14_apply, e]
  rw [val_main_v16_apply, v13_at, hB]
  rfl

/-- The three slices read column `o + q`. -/
theorem c0_at (i : Fin 100000) (q : Fin 128) : idx_main_v17 (ix2 i q) = ix2 i (Spec.col 0 (by omega) q) :=
  funext fun a => Fin.ext (by match a with | ⟨0, _⟩ => rfl | ⟨1, _⟩ => exact (Nat.zero_add q.val).symm)
theorem c128_at (i : Fin 100000) (q : Fin 128) : idx_main_v18 (ix2 i q) = ix2 i (Spec.col 128 (by omega) q) := funext fun a => Fin.ext (by match a with | ⟨0, _⟩ => rfl | ⟨1, _⟩ => rfl)
theorem c256_at (i : Fin 100000) (q : Fin 128) : idx_main_v19 (ix2 i q) = ix2 i (Spec.col 256 (by omega) q) := funext fun a => Fin.ext (by match a with | ⟨0, _⟩ => rfl | ⟨1, _⟩ => rfl)

/-- Each broadcast of the constant `1.0` is that pattern everywhere. -/
theorem v26_at (j : S100000x128.Idx) : val_main_v26 (F := Ideal) j = Spec.one := (val_main_v26_apply (F := Ideal) j).trans rfl
theorem v28_at (j : S100000x128.Idx) : val_main_v28 (F := Ideal) j = Spec.one := (val_main_v28_apply (F := Ideal) j).trans rfl
theorem v33_at (j : S100000x128.Idx) : val_main_v33 (F := Ideal) j = Spec.one := (val_main_v33_apply (F := Ideal) j).trans rfl
theorem v35_at (j : S100000x128.Idx) : val_main_v35 (F := Ideal) j = Spec.one := (val_main_v35_apply (F := Ideal) j).trans rfl
theorem v40_at (j : S100000x128.Idx) : val_main_v40 (F := Ideal) j = Spec.one := (val_main_v40_apply (F := Ideal) j).trans rfl

/-- The updated row at `(i, q)` is the specification's `newMem`. -/
theorem v44_at (i : Fin 100000) (q : Fin 128) :
    val_main_v44 (F := Ideal) x0 x1 x2 x3 x4 x5 x6 (ix2 i q)
      = Spec.newMem (N := 100000) x0 (val_main_v6 (F := Ideal) x1 x2) (Spec.tr (a := 384) (b := 1536) x3)
          (Spec.tr (a := 384) (b := 128) x4) (Spec.rowOf (a := 384) x5) (Spec.rowOf (a := 384) x6) i q := by
  have h17 := (val_main_v17_apply (F := Ideal) x0 x3 x5 (ix2 i q)).trans ((congrArg _ (c0_at i q)).trans (v11_at x0 x3 x5 i _))
  have h18 := (val_main_v18_apply (F := Ideal) x0 x3 x5 (ix2 i q)).trans ((congrArg _ (c128_at i q)).trans (v11_at x0 x3 x5 i _))
  have h19 := (val_main_v19_apply (F := Ideal) x0 x3 x5 (ix2 i q)).trans ((congrArg _ (c256_at i q)).trans (v11_at x0 x3 x5 i _))
  have h20 := (val_main_v20_apply (F := Ideal) x1 x2 x4 x6 (ix2 i q)).trans ((congrArg _ (c0_at i q)).trans (v16_at x1 x2 x4 x6 i _))
  have h21 := (val_main_v21_apply (F := Ideal) x1 x2 x4 x6 (ix2 i q)).trans ((congrArg _ (c128_at i q)).trans (v16_at x1 x2 x4 x6 i _))
  have h22 := (val_main_v22_apply (F := Ideal) x1 x2 x4 x6 (ix2 i q)).trans ((congrArg _ (c256_at i q)).trans (v16_at x1 x2 x4 x6 i _))
  unfold Spec.newMem
  simp only [val_main_v44_apply, val_main_v43_apply, val_main_v42_apply, val_main_v41_apply, val_main_v39_apply,
    val_main_v38_apply, val_main_v37_apply, val_main_v36_apply, val_main_v34_apply, val_main_v32_apply, val_main_v31_apply,
    val_main_v30_apply, val_main_v29_apply, val_main_v27_apply, val_main_v25_apply, val_main_v24_apply, val_main_v23_apply,
    h17, h18, h19, h20, h21, h22, v26_at, v28_at, v33_at, v35_at, v40_at,
    Ideal.addf_def, Ideal.subf_def, Ideal.mulf_def, Ideal.hostDivf_def, Ideal.hostUnary_exp_def, Ideal.hostUnary_tanh_def,
    Ideal.hostNegf_def, Ideal.negf_def, logistic_spelled]

/-- The updated rows are the specification's. -/
theorem v44_eq :
    val_main_v44 (F := Ideal) x0 x1 x2 x3 x4 x5 x6 = Spec.NM x0 (prev x1 x2) x3 x4 x5 x6 := by
  funext j
  obtain ⟨i, q, rfl⟩ : ∃ (i : Fin 100000) (q : Fin 128), j = ix2 i q := ⟨j 0, j 1, eq_ix2 j⟩
  exact (v44_at x0 x1 x2 x3 x4 x5 x6 i q).trans rfl

/-- The memory result is the scatter of the updated rows at the wrapped node ids. -/
theorem v51_eq :
    val_main_v51 (F := Ideal) x0 x1 x2 x3 x4 x5 x6
      = Host.scatter scatter_S250000x128_S100000x1_S100000x128_1_0_0_1 (fun _ b => b) x2 (wrapIdx x1)
          (Spec.NM x0 (prev x1 x2) x3 x4 x5 x6) := by
  unfold val_main_v51
  rw [v44_eq, v50_eq]

/-- The concatenated row's first part is the inputs' row. -/
theorem v52_left (i : Fin 100000) (c : Fin 2) (k : Fin 1536) :
    val_main_v52 (F := Ideal) x0 x1 x2 x3 x4 x5 x6 (lidx_main_v54 (ix2 i c) (Spec.colE k)) = x0 (ix2 i k) := by
  unfold val_main_v52
  exact concatenate_pair_apply_left 1 x0 _ concatenates_S100000x1536_S100000x128_S100000x1664_d1 _ rfl (ix2 i k)
    (fun b => by match b with | ⟨0, _⟩ => rfl | ⟨1, _⟩ => rfl)

/-- The concatenated row's second part is the updated row. -/
theorem v52_right (i : Fin 100000) (c : Fin 2) (k : Fin 128) :
    val_main_v52 (F := Ideal) x0 x1 x2 x3 x4 x5 x6 (lidx_main_v54 (ix2 i c) (Spec.colM k))
      = val_main_v44 (F := Ideal) x0 x1 x2 x3 x4 x5 x6 (ix2 i k) := by
  unfold val_main_v52
  exact concatenate_pair_apply_right 1 x0 _ concatenates_S100000x1536_S100000x128_S100000x1664_d1 _ rfl rfl (ix2 i k)
    (fun b hb => by match b, hb with | ⟨0, _⟩, _ => rfl | ⟨1, _⟩, hb => exact absurd rfl hb)
    (by show k.val + 1536 = 1536 + k.val; omega)

/-- The classifier's product splits into the inputs' part and the updated row's part. -/
theorem v54_at (i : Fin 100000) (c : Fin 2) :
    val_main_v54 (F := Ideal) x0 x1 x2 x3 x4 x5 x6 x7 (ix2 i c)
      = (∑ k : Fin 1536, x0 (ix2 i k) * Spec.ceT x7 (ix2 k c))
        + (∑ k : Fin 128, Spec.NM x0 (prev x1 x2) x3 x4 x5 x6 (ix2 i k) * Spec.cmT x7 (ix2 k c)) := by
  rw [val_main_v54_apply]
  refine (Spec.sum_split _).trans ?_
  refine congrArg₂ (· + ·) (Finset.sum_congr rfl fun k _ => ?_) (Finset.sum_congr rfl fun k _ => ?_)
  · have e : idx_main_v53 (ridx_main_v54 (ix2 i c) (Spec.colE k)) = ix2 c (Spec.colE k) := funext fun a => Fin.ext (by match a with | ⟨0, _⟩ => rfl | ⟨1, _⟩ => rfl)
    rw [v52_left, val_main_v53_apply, e]
    rfl
  · have e : idx_main_v53 (ridx_main_v54 (ix2 i c) (Spec.colM k)) = ix2 c (Spec.colM k) := funext fun a => Fin.ext (by match a with | ⟨0, _⟩ => rfl | ⟨1, _⟩ => rfl)
    rw [v52_right, val_main_v53_apply, e, v44_eq]
    rfl

/-- The logits at `(i, c)` are the specification's. -/
theorem v57_eq :
    val_main_v57 (F := Ideal) x0 x1 x2 x3 x4 x5 x6 x7 x8 = Spec.LG x0 (prev x1 x2) x3 x4 x5 x6 x7 x8 := by
  funext j
  obtain ⟨i, c, rfl⟩ : ∃ (i : Fin 100000) (c : Fin 2), j = ix2 i c := ⟨j 0, j 1, eq_ix2 j⟩
  have hB : val_main_v56 (F := Ideal) x8 (ix2 i c) = x8 (ix1 c) := by
    have e : idx_main_v55 (idx_main_v56 (ix2 i c)) = ix1 c := funext fun a => Fin.ext (by match a with | ⟨0, _⟩ => rfl)
    rw [val_main_v56_apply, val_main_v55_apply, e]
  rw [val_main_v57_apply, v54_at, hB]
  rfl

end Stages

/-- The reference's logits are the specification's. -/
theorem logits_eq (m : (ℓ : Loc nD τ sig) → Buf (Elt Ideal) ℓ) (c : Dev nD) :
    Cert.ReferenceIdeal.Value.res_out0 (F := Ideal) m c
      = Cert.Spec.LG (m ((c.tc : Thread nD τ).loc main_arg0))
          (prev (m ((c.tc : Thread nD τ).loc main_arg1)) (m ((c.tc : Thread nD τ).loc main_arg2)))
          (m ((c.tc : Thread nD τ).loc main_arg3)) (m ((c.tc : Thread nD τ).loc main_arg4))
          (m ((c.tc : Thread nD τ).loc main_arg5)) (m ((c.tc : Thread nD τ).loc main_arg6))
          (m ((c.tc : Thread nD τ).loc main_arg7)) (m ((c.tc : Thread nD τ).loc main_arg8)) :=
  (Cert.ReferenceIdeal.Read.val_main_v57_eq (F := Ideal) m c).trans (v57_eq _ _ _ _ _ _ _ _ _)

/-- The reference's memory result is the scatter of the specification's updated rows at the wrapped node ids. -/
theorem mem_eq (m : (ℓ : Loc nD τ sig) → Buf (Elt Ideal) ℓ) (c : Dev nD) :
    Cert.ReferenceIdeal.Value.res_out1 (F := Ideal) m c
      = Host.scatter scatter_S250000x128_S100000x1_S100000x128_1_0_0_1 (fun _ b => b)
          (m ((c.tc : Thread nD τ).loc main_arg2)) (wrapIdx (m ((c.tc : Thread nD τ).loc main_arg1)))
          (Cert.Spec.NM (m ((c.tc : Thread nD τ).loc main_arg0))
            (prev (m ((c.tc : Thread nD τ).loc main_arg1)) (m ((c.tc : Thread nD τ).loc main_arg2)))
            (m ((c.tc : Thread nD τ).loc main_arg3)) (m ((c.tc : Thread nD τ).loc main_arg4))
            (m ((c.tc : Thread nD τ).loc main_arg5)) (m ((c.tc : Thread nD τ).loc main_arg6))) :=
  (Cert.ReferenceIdeal.Read.val_main_v51_eq (F := Ideal) m c).trans (v51_eq _ _ _ _ _ _ _)

end Cert.ReferenceIdeal.RefSpec

end
-- ==== Proof.lean ====
/- The kernel program and the reference compute the same two results over the extended reals.

   Both take a row of the inputs and the row of the memory the node id selects (a negative id wrapped by 250000), run
   one recurrent-cell update on them — two gate products plus biases, the logistic function of the first and the
   second 128-column slices' sums, the hyperbolic tangent of the third combined through the reset gate, and
   (1 − z)·n + z·prev —, return the classifier's product of the row [inputs ; updated row] plus its bias, and scatter
   the updated rows into the memory at the wrapped ids.
   The kernel program computes the update and the logits 2000 rows at a time in one pipelined region, from weights the
   host transposed beforehand, and the classifier's product as the sum of its two parts; its gather replaces a row
   whose wrapped id is out of [0, 249999] by a not-a-number fill, which the reference's clamping gather does not: the
   precondition keeps every node id in [-250000, 250000), where the fill never shows.
   The specification (Proof/Spec.lean) states both results row by row; the reference is read as that specification in
   Proof/RefSpec.lean, the kernel's body in Proof/KernelPay.lean and its arrays after the region in Proof/KernelArr.lean,
   and the precondition is decoded in Proof/PreMask.lean. No law used needs finiteness: sums are reindexed and split,
   and the logistic function is 1 / (1 + e^(−x)) by definition. -/
import proofs.«417685_j83846351552519_2_alg».proof.Defs
import proofs.«417685_j83846351552519_2_alg».proof.Proof.Gen.Kernel
import proofs.«417685_j83846351552519_2_alg».proof.Proof.Gen.Kernel.Skeleton
import proofs.«417685_j83846351552519_2_alg».proof.Proof.Gen.Kernel.Launch
import proofs.«417685_j83846351552519_2_alg».proof.Proof.Gen.Kernel.Points
import proofs.«417685_j83846351552519_2_alg».proof.Proof.Gen.Kernel.Frame
import proofs.«417685_j83846351552519_2_alg».proof.Proof.Gen.KernelIdeal
import proofs.«417685_j83846351552519_2_alg».proof.Proof.Gen.KernelIdeal.Skeleton
import proofs.«417685_j83846351552519_2_alg».proof.Proof.Gen.KernelIdeal.Launch
import proofs.«417685_j83846351552519_2_alg».proof.Proof.Gen.KernelIdeal.Points
import proofs.«417685_j83846351552519_2_alg».proof.Proof.Gen.KernelIdeal.Frame
import proofs.«417685_j83846351552519_2_alg».proof.Proof.Gen.ReferenceIdeal
import proofs.«417685_j83846351552519_2_alg».proof.Proof.Gen.ReferenceIdeal.Run
import proofs.«417685_j83846351552519_2_alg».proof.Proof.Gen.ReferenceIdeal.Read
import proofs.«417685_j83846351552519_2_alg».proof.Proof.Gen.Pre_finite_inputs
import proofs.«417685_j83846351552519_2_alg».proof.Proof.KernelArr
import proofs.«417685_j83846351552519_2_alg».proof.Proof.PreMask
import proofs.«417685_j83846351552519_2_alg».proof.Proof.RefSpec
import Idealize.ShloMosaic.Adequacy
import Idealize.ShloMosaic.Init

noncomputable section

namespace Cert.Proof

open Idealize.ShloMosaic Idealize.SL.Sem

/-- The reference's gathered rows, spelled with the kernel program's records: the same gather at the same wrapped ids. -/
theorem prev_same (x1 : IVec Cert.KernelIdeal.S100000 32) (x2 : FVec Ideal Cert.KernelIdeal.S250000x128 .f32) :
    Cert.ReferenceIdeal.RefSpec.prev x1 x2
      = Host.gather Cert.KernelIdeal.gather_S250000x128_S100000x1_S100000x128_1_0_n_n_0_1_1128 x2
          (Cert.KernelIdeal.PreMask.wrapIdx x1) := rfl

theorem frame_k : Cert.frame_Kernel := fun m ρ _ => Cert.Kernel.Gen.frame m ρ

theorem frame_ki : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the specification's logits and the scatter of the specification's updated rows, of arguments
    that agree; under the precondition the gathered rows the kernel's region finds are the reference's. -/
theorem algebraic : Cert.algebraic_KernelIdeal_ReferenceIdeal := by
  intro m ρ m' ρ' hpre hagree
  refine ⟨fun c => Cert.KernelIdeal.KArr.LGk m c,
    fun c => Host.scatter Cert.KernelIdeal.scatter_S250000x128_S100000x1_S100000x128_1_0_0_1 (fun _ b => b)
      (m ((c.tc : Thread Cert.KernelIdeal.nD Cert.KernelIdeal.τ).loc Cert.KernelIdeal.main_arg2))
      (Cert.KernelIdeal.KArr.wrapK (m ((c.tc : Thread Cert.KernelIdeal.nD Cert.KernelIdeal.τ).loc Cert.KernelIdeal.main_arg1)))
      (Cert.KernelIdeal.KArr.NMk m c),
    Cert.KernelIdeal.KArr.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8⟩ := hagree c
    have hP : Cert.ReferenceIdeal.RefSpec.prev (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        = (Cert.KernelIdeal.Gen.V m c Cert.KernelIdeal.main_v14 : Cert.KernelIdeal.S100000x128.Idx → EReal) :=
      (prev_same _ _).trans (Cert.KernelIdeal.PreMask.prev_eq m c hpre).symm
    refine (Cert.ReferenceIdeal.RefSpec.logits_eq m' c).trans ?_
    rw [a0, a1, a2, a3, a4, a5, a6, a7, a8]
    exact congrArg (fun P => Cert.Spec.LG (m ((c.tc : Thread Cert.KernelIdeal.nD Cert.KernelIdeal.τ).loc Cert.KernelIdeal.main_arg0)) P
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))) hP
  · obtain ⟨a0, a1, a2, a3, a4, a5, a6, a7, a8⟩ := hagree c
    have hP : Cert.ReferenceIdeal.RefSpec.prev (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        = (Cert.KernelIdeal.Gen.V m c Cert.KernelIdeal.main_v14 : Cert.KernelIdeal.S100000x128.Idx → EReal) :=
      (prev_same _ _).trans (Cert.KernelIdeal.PreMask.prev_eq m c hpre).symm
    refine (Cert.ReferenceIdeal.RefSpec.mem_eq m' c).trans ?_
    rw [a0, a1, a2, a3, a4, a5, a6]
    exact congrArg (fun P => Host.scatter Cert.KernelIdeal.scatter_S250000x128_S100000x1_S100000x128_1_0_0_1 (fun _ b => b)
      (m ((c.tc : Thread Cert.KernelIdeal.nD Cert.KernelIdeal.τ).loc Cert.KernelIdeal.main_arg2))
      (Cert.KernelIdeal.KArr.wrapK (m ((c.tc : Thread Cert.KernelIdeal.nD Cert.KernelIdeal.τ).loc Cert.KernelIdeal.main_arg1)))
      (Cert.Spec.NM (m ((c.tc : Thread Cert.KernelIdeal.nD Cert.KernelIdeal.τ).loc Cert.KernelIdeal.main_arg0)) P
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6)))) hP

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
